-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x64 : Shape := ⟨2, ![500000, 64]⟩
abbrev S64x64 : Shape := ⟨2, ![64, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S64x64 : S_.BroadcastsInDim S64x64 (![] : Fin 0 → Fin S64x64.rank)
  reducesTo_S64x64_S_d0_1 : S64x64.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg4 : IVec S500000 32) (main_v48 : IVec S_ 1) (main_v50 : IVec S500000 1) : IVec S_ 1 :=
  let main_c_19 : IVec S_ 32 := constantI S_ 32 64#32
  let main_v51 : IVec S500000 32 := broadcastInDim S500000 ![] bcast_S_S500000 main_c_19
  let main_v52 : IVec S500000 1 := cmpi .slt main_arg4 main_v51
  let main_v53 : IVec S500000 1 := andi main_v50 main_v52
  let main_c_20 : IVec S_ 1 := constantI S_ 1 1#1
  let main_v54 : IVec S_ 1 := (fun x v => Host.reduce IntOp.andi x v reducesTo_S500000_S_d0 h_S_) main_v53 main_c_20
  let main_v55 : IVec S_ 1 := andi main_v48 main_v54
  main_v55

def fn_part2 {F : FTy → Type} [FloatOps F] (main_arg4 : IVec S500000 32) (main_arg8 : FVec F S256 .f32) (main_arg9 : FVec F S256x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S500000 32 := broadcastInDim S500000 ![] bcast_S_S500000 main_c_18
  let main_v50 : IVec S500000 1 := cmpi .sge main_arg4 main_v49
  fn_part3 (F := F) main_arg4 main_v48 main_v50

def fn_part1 {F : FTy → Type} [FloatOps F] (main_arg4 : IVec S500000 32) (main_arg5 : FVec F S384x256 .f32) (main_arg6 : FVec F S256 .f32) (main_arg7 : FVec F S256 .f32) (main_arg8 : FVec F S256 .f32) (main_arg9 : FVec F S256x256 .f32) (main_arg10 : FVec F S256 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg4 main_arg8 main_arg9 main_arg10 main_v33

def fn {F : FTy → Type} [FloatOps F] (main_arg0 : FVec F S500000x128 .f32) (main_arg1 : FVec F S500000x128 .f32) (main_arg2 : FVec F S500000x64 .f32) (main_arg3 : FVec F S64x64 .f32) (main_arg4 : IVec S500000 32) (main_arg5 : FVec F S384x256 .f32) (main_arg6 : FVec F S256 .f32) (main_arg7 : FVec F S256 .f32) (main_arg8 : FVec F S256 .f32) (main_arg9 : FVec F S256x256 .f32) (main_arg10 : FVec F S256 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S500000x128 : Shape := ⟨2, ![500000, 128]⟩
abbrev S500000x64 : Shape := ⟨2, ![500000, 64]⟩
abbrev S64x64 : Shape := ⟨2, ![64, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S128x256 : Shape := ⟨2, ![128, 256]⟩
abbrev S64x256 : Shape := ⟨2, ![64, 256]⟩
abbrev S1x256 : Shape := ⟨2, ![1, 256]⟩
abbrev S_ : Shape := ⟨0, ![]⟩
abbrev S500000x1 : Shape := ⟨2, ![500000, 1]⟩
abbrev S500000x256 : Shape := ⟨2, ![500000, 256]⟩
abbrev S5000x128 : Shape := ⟨2, ![5000, 128]⟩
abbrev S5000x64 : Shape := ⟨2, ![5000, 64]⟩
abbrev S5000x1 : Shape := ⟨2, ![5000, 1]⟩
abbrev S5000x256 : Shape := ⟨2, ![5000, 256]⟩
abbrev S5000 : Shape := ⟨1, ![5000]⟩

abbrev nBuf : Space → Nat
  | .hbm => 34
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S64x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S128x256, .f32⟩
  | .hbm, ⟨12, _⟩ => ⟨S128x256, .f32⟩
  | .hbm, ⟨13, _⟩ => ⟨S64x256, .f32⟩
  | .hbm, ⟨14, _⟩ => ⟨S64x256, .f32⟩
  | .hbm, ⟨15, _⟩ => ⟨S64x256, .f32⟩
  | .hbm, ⟨16, _⟩ => ⟨S1x256, .f32⟩
  | .hbm, ⟨17, _⟩ => ⟨S64x256, .f32⟩
  | .hbm, ⟨18, _⟩ => ⟨S64x256, .f32⟩
  | .hbm, ⟨19, _⟩ => ⟨S128x256, .bf16⟩
  | .hbm, ⟨20, _⟩ => ⟨S128x256, .bf16⟩
  | .hbm, ⟨21, _⟩ => ⟨S64x256, .bf16⟩
  | .hbm, ⟨22, _⟩ => ⟨S64x256, .bf16⟩
  | .hbm, ⟨23, _⟩ => ⟨S256x256, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x64, .f32⟩
  | .local _ .vmem, ⟨5, _⟩ => ⟨S5000x64, .f32⟩
  | .local _ .vmem, ⟨6, _⟩ => ⟨S5000x1, .i32⟩
  | .local _ .vmem, ⟨7, _⟩ => ⟨S5000x1, .i32⟩
  | .local _ .vmem, ⟨8, _⟩ => ⟨S128x256, .bf16⟩
  | .local _ .vmem, ⟨9, _⟩ => ⟨S128x256, .bf16⟩
  | .local _ .vmem, ⟨10, _⟩ => ⟨S64x256, .bf16⟩
  | .local _ .vmem, ⟨11, _⟩ => ⟨S64x256, .bf16⟩
  | .local _ .vmem, ⟨12, _⟩ => ⟨S256, .f32⟩
  | .local _ .vmem, ⟨13, _⟩ => ⟨S256, .f32⟩
  | .local _ .vmem, ⟨14, _⟩ => ⟨S256x256, .bf16⟩
  | .local _ .vmem, ⟨15, _⟩ => ⟨S256, .f32⟩
  | .local _ .vmem, ⟨16, _⟩ => ⟨S5000x256, .f32⟩
  | .local _ .vmem, ⟨17, _⟩ => ⟨S5000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S5000x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S384x256_S128x256_0_0 : S384x256.Slices ![0, 0] S128x256
  slices_S384x256_S128x256_128_0 : S384x256.Slices ![128, 0] S128x256
  slices_S384x256_S64x256_256_0 : S384x256.Slices ![256, 0] S64x256
  slices_S384x256_S64x256_320_0 : S384x256.Slices ![320, 0] S64x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bitsLt_bf16_f32 : FTy.bits .bf16 < FTy.bits .f32
  bcast_S_S500000 : S_.BroadcastsInDim S500000 (![] : Fin 0 → Fin S500000.rank)
  shapeCasts_S500000_S500000x1 : S500000.ShapeCasts S500000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  reduces_S5000x256_S5000 : S5000x256.Reduces [1] S5000
  shapeCasts_S5000_S5000x1 : S5000.ShapeCasts S5000x1
  broadcasts_S5000x1_S5000x256 : S5000x1.Broadcasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S5000x256_S5000x256_0_0 : ∀ a, (![0, 0] : Fin 2 → Nat) a + S5000x256.size a ≤ S5000x256.size a
  h_S5000x256 : 0 < S5000x256.numel
  dot_S64x64_S64x256_S64x256_1_0_0_1_n_n_wf : DotDims.WF S64x64 S64x256 S64x256 [1] [0] [0] [1] [] []
  dot_S5000x128_S128x256_S5000x256_1_0_0_1_n_n_wf : DotDims.WF S5000x128 S128x256 S5000x256 [1] [0] [0] [1] [] []
  dot_S5000x64_S64x256_S5000x256_1_0_0_1_n_n_wf : DotDims.WF S5000x64 S64x256 S5000x256 [1] [0] [0] [1] [] []
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S500000x64.size a
  hwx0_2 : ∀ i : grid0.Coords, EltTy.bits .f32 = 32 ∨ (Rect.block (s := S500000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S500000x1.size a
  hwx0_3 : ∀ i : grid0.Coords, EltTy.bits .i32 = 32 ∨ (Rect.block (s := S500000x1) S5000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .bf16 = 32 ∨ (Rect.block (s := S64x256) S64x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .bf16 = 32 ∨ (Rect.block (s := S64x256) S64x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x256.size a ≤ S500000x256.size a
  hwx0_12 : ∀ i : grid0.Coords, EltTy.bits .f32 = 32 ∨ (Rect.block (s := S500000x256) S5000x256.size (cc0_transform_12 i) (hinb0_12 i)).WholeWords (EltTy.packing .f32)

variable [Facts₀]

def dot_S64x64_S64x256_S64x256_1_0_0_1_n_n : DotDims S64x64 S64x256 S64x256 where
  lhsContracting := [1]
  rhsContracting := [0]
  lhsNonContracting := [0]
  rhsNonContracting := [1]
  lhsBatch := []
  rhsBatch := []
  wf := dot_S64x64_S64x256_S64x256_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S64x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S5000x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000x64 : Shape := ⟨2, ![500000, 64]⟩
abbrev S64x64 : Shape := ⟨2, ![64, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩

abbrev nBuf : Space → Nat
  | .hbm => 65
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S64x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x64, .f32⟩
  | .hbm, ⟨20, _⟩ => ⟨S500000x384, .f32⟩
  | .hbm, ⟨21, _⟩ => ⟨S500000x256, .f32⟩
  | .hbm, ⟨22, _⟩ => ⟨S1x256, .f32⟩
  | .hbm, ⟨23, _⟩ => ⟨S500000x256, .f32⟩
  | .hbm, ⟨24, _⟩ => ⟨S500000x256, .f32⟩
  | .hbm, ⟨25, _⟩ => ⟨S_, .f32⟩
  | .hbm, ⟨26, _⟩ => ⟨S500000x256, .f32⟩
  | .hbm, ⟨27, _⟩ => ⟨S500000x256, .i1⟩
  | .hbm, ⟨28, _⟩ => ⟨S_, .f32⟩
  | .hbm, ⟨29, _⟩ => ⟨S500000x256, .f32⟩
  | .hbm, ⟨30, _⟩ => ⟨S500000x256, .f32⟩
  | .hbm, ⟨31, _⟩ => ⟨S500000x256, .f32⟩
  | .hbm, ⟨32, _⟩ => ⟨S_, .f32⟩
  | .hbm, ⟨33, _⟩ => ⟨S500000, .f32⟩
  | .hbm, ⟨34, _⟩ => ⟨S500000x1, .f32⟩
  | .hbm, ⟨35, _⟩ => ⟨S_, .f32⟩
  | .hbm, ⟨36, _⟩ => ⟨S500000x1, .f32⟩
  | .hbm, ⟨37, _⟩ => ⟨S500000x1, .f32⟩
  | .hbm, ⟨38, _⟩ => ⟨S500000x256, .f32⟩
  | .hbm, ⟨39, _⟩ => ⟨S500000x256, .f32⟩
  | .hbm, ⟨40, _⟩ => ⟨S500000x256, .f32⟩
  | .hbm, ⟨41, _⟩ => ⟨S_, .f32⟩
  | .hbm, ⟨42, _⟩ => ⟨S500000, .f32⟩
  | .hbm, ⟨43, _⟩ => ⟨S500000x1, .f32⟩
  | .hbm, ⟨44, _⟩ => ⟨S_, .f32⟩
  | .hbm, ⟨45, _⟩ => ⟨S500000x1, .f32⟩
  | .hbm, ⟨46, _⟩ => ⟨S500000x1, .f32⟩
  | .hbm, ⟨47, _⟩ => ⟨S500000x256, .f32⟩
  | .hbm, ⟨48, _⟩ => ⟨S500000x256, .f32⟩
  | .hbm, ⟨49, _⟩ => ⟨S_, .f32⟩
  | .hbm, ⟨50, _⟩ => ⟨S500000x1, .f32⟩
  | .hbm, ⟨51, _⟩ => ⟨S500000x1, .f32⟩
  | .hbm, ⟨52, _⟩ => ⟨S500000x1, .f32⟩
  | .hbm, ⟨53, _⟩ => ⟨S500000x256, .f32⟩
  | .hbm, ⟨54, _⟩ => ⟨S500000x256, .f32⟩
  | .hbm, ⟨55, _⟩ => ⟨S1x256, .f32⟩
  | .hbm, ⟨56, _⟩ => ⟨S500000x256, .f32⟩
  | .hbm, ⟨57, _⟩ => ⟨S500000x256, .f32⟩
  | .hbm, ⟨58, _⟩ => ⟨S1x256, .f32⟩
  | .hbm, ⟨59, _⟩ => ⟨S500000x256, .f32⟩
  | .hbm, ⟨60, _⟩ => ⟨S500000x256, .f32⟩
  | .hbm, ⟨61, _⟩ => ⟨S500000x256, .f32⟩
  | .hbm, ⟨62, _⟩ => ⟨S1x256, .f32⟩
  | .hbm, ⟨63, _⟩ => ⟨S500000x256, .f32⟩
  | .hbm, ⟨64, _⟩ => ⟨S500000x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x64_S500000x384_d1 : Shape.Concatenates [S500000x128, S500000x128, S500000x64, S500000x64] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  reducesTo_S500000x256_S500000_d1 : S500000x256.ReducesTo [1] S500000
  h_S_ : 0 < S_.numel
  bcast_S_S500000x1 : S_.BroadcastsInDim S500000x1 (![] : Fin 0 → Fin S500000x1.rank)
  bcast_S500000x1_S500000x256_0_1 : S500000x1.BroadcastsInDim S500000x256 (![0, 1] : Fin 2 → Fin S500000x256.rank)
  gather_S64x64_S500000x1_S500000x64_1_0_n_n_0_1_164_wf : GatherDims.WF S64x64 S500000x1 S500000x64 [1] [0] [] [0] [] 1 ![1, 64]
  dot_S500000x384_S384x256_S500000x256_1_0_0_1_n_n_wf : DotDims.WF S500000x384 S384x256 S500000x256 [1] [0] [0] [1] [] []
  dot_S500000x256_S256x256_S500000x256_1_0_0_1_n_n_wf : DotDims.WF S500000x256 S256x256 S500000x256 [1] [0] [0] [1] [] []

variable [Facts₀]

def gather_S64x64_S500000x1_S500000x64_1_0_n_n_0_1_164 : GatherDims S64x64 S500000x1 S500000x64 where
  offsetDims := [1]
  collapsedSliceDims := [0]
  operandBatchingDims := []
  startIndicesBatchingDims := []
  startIndexMap := [0]
  indexVectorDim := 1
  sliceSizes := ![1, 64]
  wf := gather_S64x64_S500000x1_S500000x64_1_0_n_n_0_1_164_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.Spec.lean ====
/-
  What both programs compute, row by row, over the extended reals.

  For an edge `e` with source, destination and edge features `s, d, a` and graph index `b`, the hidden row is
  `h k = s·W1[0:128, k] + d·W1[128:256, k] + a·W1[256:320, k] + (u[b]·W1[320:384, k] + b1 k)`,
  passed through LeakyReLU; the row is then centred by its mean, scaled by the reciprocal square root of its
  variance plus epsilon, scaled by `gamma`, shifted by `beta`, and sent through the second linear layer
  `· W2 + b2`. The four float constants are kept as the words both programs print (0, the slope nearest 0.01,
  256, the epsilon nearest 1e-5): the same word on both sides is never evaluated.

  The reference forms the first layer as ONE sum over the 384 concatenated features plus `b1`; `cat_sum`
  regroups that sum into the four partial sums above (sums of extended reals regroup freely: addition is
  commutative and associative there, no finiteness is needed).
-/
import Idealize.ShloMosaic.PureOps.Ideal
import Idealize.ShloMosaic.PureOps.Ideal.Laws
import Idealize.ShloMosaic.Lib.ValueIdx

noncomputable section

open scoped BigOperators

namespace Cert.EdgeMlp

open Idealize.ShloMosaic Idealize.ShloMosaic.ValueIdx

/-! ## One row after the first layer -/

/-- LeakyReLU: `h` where `h ≥ 0`, the slope times `h` elsewhere. -/
def leaky (h : EReal) : EReal :=
  Scalar.select (Ideal.cmp .oge h (Ideal.ofBits .f32 0x00000000#32)) h (Ideal.ofBits .f32 0x3C23D70A#32 * h)

/-- The mean of a row of 256 entries. -/
def rowMean (a : Fin 256 → EReal) : EReal := Ideal.div (∑ k, a k) (Ideal.ofBits .f32 0x43800000#32)

/-- Its variance: the mean of the squared deviations from the mean. -/
def rowVar (a : Fin 256 → EReal) : EReal :=
  Ideal.div (∑ k, (a k - rowMean a) * (a k - rowMean a)) (Ideal.ofBits .f32 0x43800000#32)

/-- The normalised row: centred, scaled by `rsqrt (var + eps)`, then by `gamma`, shifted by `beta`. -/
def normed (a γ β : Fin 256 → EReal) (k : Fin 256) : EReal :=
  (a k - rowMean a) * Ideal.rsqrt (rowVar a + Ideal.ofBits .f32 0x3727C5AC#32) * γ k + β k

/-- The second linear layer applied to the normalised row. -/
def layer2 (a γ β : Fin 256 → EReal) (W2 : Fin 256 → Fin 256 → EReal) (b2 : Fin 256 → EReal) (j : Fin 256) : EReal :=
  (∑ k, normed a γ β k * W2 k j) + b2 j

/-! ## The first layer -/

/-- The hidden entry `k` from the three feature rows, the three row blocks of `W1` they meet, and the graph's
    contribution `g` (which already carries the bias). -/
def kLin (s d : Fin 128 → EReal) (a : Fin 64 → EReal) (A B : Fin 128 → Fin 256 → EReal) (C : Fin 64 → Fin 256 → EReal)
    (g : Fin 256 → EReal) (k : Fin 256) : EReal :=
  (((∑ i, s i * A i k) + (∑ i, d i * B i k)) + (∑ i, a i * C i k)) + g k

/-- Row `b` of the graph table `u · W1[320:384] + b1`. -/
def gTab (u : Fin 64 → Fin 64 → EReal) (D : Fin 64 → Fin 256 → EReal) (b1 : Fin 256 → EReal) (b : Fin 64) (k : Fin 256) : EReal :=
  (∑ l, u b l * D l k) + b1 k

/-- The 384 concatenated features of an edge: source, destination, edge attributes, graph features. -/
def catRow (s d : Fin 128 → EReal) (a g : Fin 64 → EReal) (k : Fin 384) : EReal :=
  if h1 : k.val < 128 then s ⟨k.val, h1⟩
  else if h2 : k.val < 256 then d ⟨k.val - 128, by omega⟩
  else if h3 : k.val < 320 then a ⟨k.val - 256, by omega⟩
  else g ⟨k.val - 320, by omega⟩

/-! ## The result as one function of the eleven arrays -/

/-- The graph an edge belongs to, read off its index word. -/
def bidx (x4 : (⟨1, ![500000]⟩ : Shape).Idx → BitVec 32) (e : Fin 500000) : Fin 64 :=
  ⟨(x4 (ix1 e)).toNat % 64, Nat.mod_lt _ (by decide)⟩

/-- The hidden row of edge `e` after LeakyReLU. -/
def hidden (x0 x1 : (⟨2, ![500000, 128]⟩ : Shape).Idx → EReal) (x2 : (⟨2, ![500000, 64]⟩ : Shape).Idx → EReal)
    (x3 : (⟨2, ![64, 64]⟩ : Shape).Idx → EReal) (x4 : (⟨1, ![500000]⟩ : Shape).Idx → BitVec 32)
    (x5 : (⟨2, ![384, 256]⟩ : Shape).Idx → EReal) (x6 : (⟨1, ![256]⟩ : Shape).Idx → EReal)
    (e : Fin 500000) (k : Fin 256) : EReal :=
  leaky (kLin (fun i => x0 (ix2 e i)) (fun i => x1 (ix2 e i)) (fun i => x2 (ix2 e i))
    (fun i k => x5 (ix2 (⟨i.val, by omega⟩ : Fin 384) k))
    (fun i k => x5 (ix2 (⟨128 + i.val, by omega⟩ : Fin 384) k))
    (fun i k => x5 (ix2 (⟨256 + i.val, by omega⟩ : Fin 384) k))
    (gTab (fun b l => x3 (ix2 b l)) (fun l k => x5 (ix2 (⟨320 + l.val, by omega⟩ : Fin 384) k)) (fun k => x6 (ix1 k)) (bidx x4 e)) k)

/-- The result at edge `e`, column `j`. -/
def Gat (x0 x1 : (⟨2, ![500000, 128]⟩ : Shape).Idx → EReal) (x2 : (⟨2, ![500000, 64]⟩ : Shape).Idx → EReal)
    (x3 : (⟨2, ![64, 64]⟩ : Shape).Idx → EReal) (x4 : (⟨1, ![500000]⟩ : Shape).Idx → BitVec 32)
    (x5 : (⟨2, ![384, 256]⟩ : Shape).Idx → EReal) (x6 x7 x8 : (⟨1, ![256]⟩ : Shape).Idx → EReal)
    (x9 : (⟨2, ![256, 256]⟩ : Shape).Idx → EReal) (x10 : (⟨1, ![256]⟩ : Shape).Idx → EReal)
    (e : Fin 500000) (j : Fin 256) : EReal :=
  layer2 (hidden x0 x1 x2 x3 x4 x5 x6 e) (fun k => x7 (ix1 k)) (fun k => x8 (ix1 k)) (fun k j => x9 (ix2 k j))
    (fun j => x10 (ix1 j)) j

/-- The whole result array. -/
def G (x0 x1 : (⟨2, ![500000, 128]⟩ : Shape).Idx → EReal) (x2 : (⟨2, ![500000, 64]⟩ : Shape).Idx → EReal)
    (x3 : (⟨2, ![64, 64]⟩ : Shape).Idx → EReal) (x4 : (⟨1, ![500000]⟩ : Shape).Idx → BitVec 32)
    (x5 : (⟨2, ![384, 256]⟩ : Shape).Idx → EReal) (x6 x7 x8 : (⟨1, ![256]⟩ : Shape).Idx → EReal)
    (x9 : (⟨2, ![256, 256]⟩ : Shape).Idx → EReal) (x10 : (⟨1, ![256]⟩ : Shape).Idx → EReal) :
    (⟨2, ![500000, 256]⟩ : Shape).Idx → EReal :=
  fun i => Gat x0 x1 x2 x3 x4 x5 x6 x7 x8 x9 x10 ⟨(i 0).val, idx2_lt0 i⟩ ⟨(i 1).val, idx2_lt1 i⟩

theorem G_ix2 (x0 x1 : (⟨2, ![500000, 128]⟩ : Shape).Idx → EReal) (x2 : (⟨2, ![500000, 64]⟩ : Shape).Idx → EReal)
    (x3 : (⟨2, ![64, 64]⟩ : Shape).Idx → EReal) (x4 : (⟨1, ![500000]⟩ : Shape).Idx → BitVec 32)
    (x5 : (⟨2, ![384, 256]⟩ : Shape).Idx → EReal) (x6 x7 x8 : (⟨1, ![256]⟩ : Shape).Idx → EReal)
    (x9 : (⟨2, ![256, 256]⟩ : Shape).Idx → EReal) (x10 : (⟨1, ![256]⟩ : Shape).Idx → EReal)
    (e : Fin 500000) (j : Fin 256) :
    G x0 x1 x2 x3 x4 x5 x6 x7 x8 x9 x10 (ix2 e j) = Gat x0 x1 x2 x3 x4 x5 x6 x7 x8 x9 x10 e j := rfl

/-- A graph index word below 64 is its own residue. -/
theorem bidx_val (x4 : (⟨1, ![500000]⟩ : Shape).Idx → BitVec 32) (e : Fin 500000) (h : (x4 (ix1 e)).toNat < 64) :
    (bidx x4 e).val = (x4 (ix1 e)).toNat := Nat.mod_eq_of_lt h

end Cert.EdgeMlp

end
-- ==== Proof.PreFacts.lean ====
/-
  What the precondition says of the graph indices: its last conjunct, `all (0 ≤ batch ∧ batch < 64)`, gives every
  index word a value below 64 (a word that is not negative reads the same signed and unsigned).
-/
import proofs.«400506_j2370821947612_3_alg».proof.Pre_finite_inputs
import proofs.«400506_j2370821947612_3_alg».proof.Proof.Gen.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

/-- The scalar shape has one index. -/
instance subsingleton_scalar_idx : Subsingleton S_.Idx := ⟨fun a b => funext fun d => d.elim0⟩

/-- A 32-bit word that tests `≥ 0` and `< 64` signed has an unsigned value below 64. -/
theorem word_lt {w : BitVec 32} (h0 : IntOp.cmpi .sge w 0#32 = 1#1) (h1 : IntOp.cmpi .slt w 64#32 = 1#1) : w.toNat < 64 := by
  rw [IntOp.cmpi_sge] at h0
  rw [IntOp.cmpi_slt] at h1
  rw [show (0#32 : BitVec 32).toInt = 0 from by decide] at h0
  rw [show (64#32 : BitVec 32).toInt = 64 from by decide] at h1
  have hlt : 2 * w.toNat < 2 ^ 32 := BitVec.toInt_pos_iff.mp h0
  rw [BitVec.toInt_eq_toNat_of_lt hlt] at h1
  omega

/-- Under the precondition every graph index is below 64. -/
theorem batch_lt {F : FTy → Type} [FloatOps F] (a0 a1 : FVec F S500000x128 .f32) (a2 : FVec F S500000x64 .f32)
    (a3 : FVec F S64x64 .f32) (a4 : IVec S500000 32) (a5 : FVec F S384x256 .f32) (a6 a7 a8 : FVec F S256 .f32)
    (a9 : FVec F S256x256 .f32) (a10 : FVec F S256 .f32)
    (h : fn (F := F) a0 a1 a2 a3 a4 a5 a6 a7 a8 a9 a10 = fun _ => 1#1) (e : Fin 500000) :
    (a4 (ix1 e)).toNat < 64 := by
  have h1 := congrFun h ix0
  dsimp only [fn, fn_part1, fn_part2, fn_part3] at h1
  have h2 := (IntOp.andi_eq_one.1 h1).2
  have h3 := Host.reduce_andi_all _ _ _ _ _ h2 (ix1 e)
  have h4 := IntOp.andi_eq_one.1 h3
  exact word_lt h4.1 h4.2

end Cert.Pre_finite_inputs.Decode

end
-- ==== Proof.HostValue.lean ====
/-
  The arrays the kernel's launch finds that the host computed first, read at an index over the extended reals:
  the three row blocks of `W1` (rows 0–127, 128–255, 256–319; the change of float format is the identity), the
  graph table `u · W1[320:384] + b1` (a 64-term sum per entry plus the bias), `W2`, and the column of graph
  indices clamped into `[0, 63]` — which is the index itself when it is already there.
-/
import proofs.«400506_j2370821947612_3_alg».proof.Proof.Gen.KernelIdeal.Frame
import proofs.«400506_j2370821947612_3_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostValue

open Cert.KernelIdeal Cert.KernelIdeal.Gen Cert.EdgeMlp Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The arrays as terms of the arguments -/

theorem V_v8 (c : Dev nD) : (V m c main_v8 : S128x256.Idx → EReal) =
    truncf (F := Ideal) .bf16 (extractStridedSlice S128x256 ![0, 0] (m ((c : Thread nD τ).loc main_arg5)) slices_S384x256_S128x256_0_0) bitsLt_bf16_f32 := by
  dsimp only [V]
  simp only [hostOps0, hostOps0_1, hostOps0_2, List.flatten_cons, List.flatten_nil, List.append_nil, List.cons_append, List.nil_append]
  after_results

theorem V_v9 (c : Dev nD) : (V m c main_v9 : S128x256.Idx → EReal) =
    truncf (F := Ideal) .bf16 (extractStridedSlice S128x256 ![128, 0] (m ((c : Thread nD τ).loc main_arg5)) slices_S384x256_S128x256_128_0) bitsLt_bf16_f32 := by
  dsimp only [V]
  simp only [hostOps0, hostOps0_1, hostOps0_2, List.flatten_cons, List.flatten_nil, List.append_nil, List.cons_append, List.nil_append]
  after_results

theorem V_v10 (c : Dev nD) : (V m c main_v10 : S64x256.Idx → EReal) =
    truncf (F := Ideal) .bf16 (extractStridedSlice S64x256 ![256, 0] (m ((c : Thread nD τ).loc main_arg5)) slices_S384x256_S64x256_256_0) bitsLt_bf16_f32 := by
  dsimp only [V]
  simp only [hostOps0, hostOps0_1, hostOps0_2, List.flatten_cons, List.flatten_nil, List.append_nil, List.cons_append, List.nil_append]
  after_results

theorem V_v11 (c : Dev nD) : (V m c main_v11 : S64x256.Idx → EReal) =
    truncf (F := Ideal) .bf16 (addf (Host.dotGeneral (F := Ideal) (φ₁ := .f32) (φ₂ := .f32) dot_S64x64_S64x256_S64x256_1_0_0_1_n_n none (m ((c : Thread nD τ).loc main_arg3) : FVec Ideal S64x64 .f32)
        (extractStridedSlice S64x256 ![320, 0] (m ((c : Thread nD τ).loc main_arg5) : FVec Ideal S384x256 .f32) slices_S384x256_S64x256_320_0 : FVec Ideal S64x256 .f32))
      (broadcastInDim S64x256 ![0, 1] bcast_S1x256_S64x256_0_1 (broadcastInDim S1x256 ![1] bcast_S256_S1x256_1 (m ((c : Thread nD τ).loc main_arg6) : FVec Ideal S256 .f32)))) bitsLt_bf16_f32 := by
  dsimp only [V]
  simp only [hostOps0, hostOps0_1, hostOps0_2, List.flatten_cons, List.flatten_nil, List.append_nil, List.cons_append, List.nil_append]
  after_results

theorem V_v12 (c : Dev nD) : (V m c main_v12 : S256x256.Idx → EReal) =
    truncf (F := Ideal) .bf16 (m ((c : Thread nD τ).loc main_arg9)) bitsLt_bf16_f32 := by
  dsimp only [V]
  simp only [hostOps0, hostOps0_1, hostOps0_2, List.flatten_cons, List.flatten_nil, List.append_nil, List.cons_append, List.nil_append]
  after_results

theorem V_v14 (c : Dev nD) : (V m c main_v14 : S500000x1.Idx → BitVec 32) =
    shapeCast S500000x1 (minsi (broadcastInDim S500000 ![] bcast_S_S500000 (constantI S_ 32 63#32))
      (maxsi (broadcastInDim S500000 ![] bcast_S_S500000 (constantI S_ 32 0#32)) (m ((c : Thread nD τ).loc main_arg4)))) shapeCasts_S500000_S500000x1 := by
  dsimp only [V]
  simp only [hostOps0, hostOps0_1, hostOps0_2, List.flatten_cons, List.flatten_nil, List.append_nil, List.cons_append, List.nil_append]
  after_results
  rfl

/-! ## The three row blocks of `W1` and `W2` at an index -/

theorem w1a_apply (c : Dev nD) (i : Fin 128) (k : Fin 256) :
    (V m c main_v8 : S128x256.Idx → EReal) (ix2 i k) = m ((c : Thread nD τ).loc main_arg5) (ix2 (⟨i.val, by omega⟩ : Fin 384) k) := by
  refine (congrFun (V_v8 m c) (ix2 i k)).trans ?_
  exact extractStridedSlice_apply ![0, 0] _ slices_S384x256_S128x256_0_0 (ix2 i k) (ix2 (⟨i.val, by omega⟩ : Fin 384) k)
    (fun a => match a with
      | ⟨0, _⟩ => by show i.val = 0 + i.val; omega
      | ⟨1, _⟩ => by show k.val = 0 + k.val; omega)

theorem w1b_apply (c : Dev nD) (i : Fin 128) (k : Fin 256) :
    (V m c main_v9 : S128x256.Idx → EReal) (ix2 i k) = m ((c : Thread nD τ).loc main_arg5) (ix2 (⟨128 + i.val, by omega⟩ : Fin 384) k) := by
  refine (congrFun (V_v9 m c) (ix2 i k)).trans ?_
  exact extractStridedSlice_apply ![128, 0] _ slices_S384x256_S128x256_128_0 (ix2 i k) (ix2 (⟨128 + i.val, by omega⟩ : Fin 384) k)
    (fun a => match a with
      | ⟨0, _⟩ => by show 128 + i.val = 128 + i.val; rfl
      | ⟨1, _⟩ => by show k.val = 0 + k.val; omega)

theorem w1c_apply (c : Dev nD) (i : Fin 64) (k : Fin 256) :
    (V m c main_v10 : S64x256.Idx → EReal) (ix2 i k) = m ((c : Thread nD τ).loc main_arg5) (ix2 (⟨256 + i.val, by omega⟩ : Fin 384) k) := by
  refine (congrFun (V_v10 m c) (ix2 i k)).trans ?_
  exact extractStridedSlice_apply ![256, 0] _ slices_S384x256_S64x256_256_0 (ix2 i k) (ix2 (⟨256 + i.val, by omega⟩ : Fin 384) k)
    (fun a => match a with
      | ⟨0, _⟩ => by show 256 + i.val = 256 + i.val; rfl
      | ⟨1, _⟩ => by show k.val = 0 + k.val; omega)

theorem w2_apply (c : Dev nD) (i k : Fin 256) :
    (V m c main_v12 : S256x256.Idx → EReal) (ix2 i k) = m ((c : Thread nD τ).loc main_arg9) (ix2 i k) :=
  congrFun (V_v12 m c) (ix2 i k)

/-! ## The graph table at an index -/

theorem lhs_g_0 (i : S64x256.Idx) (q : dot_S64x64_S64x256_S64x256_1_0_0_1_n_n.contr.Idx) :
    (dot_S64x64_S64x256_S64x256_1_0_0_1_n_n.lhsIdx i q 0).val = (i 0).val := by
  unfold DotDims.lhsIdx
  rw [dif_neg (show ¬(0 : Fin S64x64.rank) ∈ dot_S64x64_S64x256_S64x256_1_0_0_1_n_n.lhsBatch by decide), dif_pos (show (0 : Fin S64x64.rank) ∈ dot_S64x64_S64x256_S64x256_1_0_0_1_n_n.lhsNonContracting by decide)]
  rfl
theorem lhs_g_1 (i : S64x256.Idx) (q : dot_S64x64_S64x256_S64x256_1_0_0_1_n_n.contr.Idx) :
    (dot_S64x64_S64x256_S64x256_1_0_0_1_n_n.lhsIdx i q 1).val = (q ⟨0, by decide⟩).val :=
  dot_S64x64_S64x256_S64x256_1_0_0_1_n_n.lhsIdx_val_of_single rfl i q
theorem rhs_g_0 (i : S64x256.Idx) (q : dot_S64x64_S64x256_S64x256_1_0_0_1_n_n.contr.Idx) :
    (dot_S64x64_S64x256_S64x256_1_0_0_1_n_n.rhsIdx i q 0).val = (q ⟨0, by decide⟩).val :=
  dot_S64x64_S64x256_S64x256_1_0_0_1_n_n.rhsIdx_val_of_single rfl i q
theorem rhs_g_1 (i : S64x256.Idx) (q : dot_S64x64_S64x256_S64x256_1_0_0_1_n_n.contr.Idx) :
    (dot_S64x64_S64x256_S64x256_1_0_0_1_n_n.rhsIdx i q 1).val = (i 1).val := by
  unfold DotDims.rhsIdx
  rw [dif_neg (show ¬(1 : Fin S64x256.rank) ∈ dot_S64x64_S64x256_S64x256_1_0_0_1_n_n.rhsBatch by decide), dif_pos (show (1 : Fin S64x256.rank) ∈ dot_S64x64_S64x256_S64x256_1_0_0_1_n_n.rhsNonContracting by decide)]
  rfl

/-- The product `u · D` of a 64×64 and a 64×256 array at `(b, k)` is the 64-term sum. -/
theorem dot_g_apply (u : FVec Ideal S64x64 .f32) (D : FVec Ideal S64x256 .f32) (b : Fin 64) (k : Fin 256) :
    Host.dotGeneral (F := Ideal) (φ₁ := .f32) (φ₂ := .f32) dot_S64x64_S64x256_S64x256_1_0_0_1_n_n none u D (ix2 b k) = ∑ l : Fin 64, u (ix2 b l) * D (ix2 l k) := by
  simp only [Host.dotGeneral]
  rw [Ideal.dotGeneral_apply, ← Equiv.sum_comp (ValueIdx.contrEquiv1 dot_S64x64_S64x256_S64x256_1_0_0_1_n_n 64 rfl rfl).symm]
  refine Finset.sum_congr rfl fun l _ => ?_
  have hl := ValueIdx.contrEquiv1_symm_val dot_S64x64_S64x256_S64x256_1_0_0_1_n_n 64 rfl rfl l
  have el : dot_S64x64_S64x256_S64x256_1_0_0_1_n_n.lhsIdx (ix2 b k) ((ValueIdx.contrEquiv1 dot_S64x64_S64x256_S64x256_1_0_0_1_n_n 64 rfl rfl).symm l) = ix2 b l := funext fun a => Fin.ext (by
    match a with
    | ⟨0, _⟩ => exact lhs_g_0 _ _
    | ⟨1, _⟩ => exact (lhs_g_1 _ _).trans hl)
  have er : dot_S64x64_S64x256_S64x256_1_0_0_1_n_n.rhsIdx (ix2 b k) ((ValueIdx.contrEquiv1 dot_S64x64_S64x256_S64x256_1_0_0_1_n_n 64 rfl rfl).symm l) = ix2 l k := funext fun a => Fin.ext (by
    match a with
    | ⟨0, _⟩ => exact (rhs_g_0 _ _).trans hl
    | ⟨1, _⟩ => exact rhs_g_1 _ _)
  rw [el, er]

/-- The table's term at `(b, k)`, for any three arrays: row `b` of `u` against column `k` of rows 320–383 of `W`, plus `b1 k`. -/
theorem gTab_of (u : FVec Ideal S64x64 .f32) (W : FVec Ideal S384x256 .f32) (b1 : FVec Ideal S256 .f32) (b : Fin 64) (k : Fin 256) :
    truncf (F := Ideal) .bf16 (addf (Host.dotGeneral (F := Ideal) (φ₁ := .f32) (φ₂ := .f32) dot_S64x64_S64x256_S64x256_1_0_0_1_n_n none u
        (extractStridedSlice S64x256 ![320, 0] W slices_S384x256_S64x256_320_0 : FVec Ideal S64x256 .f32))
      (broadcastInDim S64x256 ![0, 1] bcast_S1x256_S64x256_0_1 (broadcastInDim S1x256 ![1] bcast_S256_S1x256_1 b1))) bitsLt_bf16_f32 (ix2 b k)
    = gTab (fun b l => u (ix2 b l)) (fun l k => W (ix2 (⟨320 + l.val, by omega⟩ : Fin 384) k)) (fun k => b1 (ix1 k)) b k := by
  unfold gTab
  change (_ : EReal) + _ = (_ : EReal) + _
  refine congrArg₂ (· + ·) ((dot_g_apply _ _ b k).trans (Finset.sum_congr rfl fun l _ => ?_)) ?_
  · have hs := extractStridedSlice_apply ![320, 0] W slices_S384x256_S64x256_320_0
      (ix2 l k) (ix2 (⟨320 + l.val, by omega⟩ : Fin 384) k)
      (fun a => match a with
        | ⟨0, _⟩ => by show 320 + l.val = 320 + l.val; rfl
        | ⟨1, _⟩ => by show k.val = 0 + k.val; omega)
    exact congrArg (fun z : EReal => u (ix2 b l) * z) hs
  · refine (broadcastInDim_apply ![0, 1] bcast_S1x256_S64x256_0_1 _ (ix2 b k) (ix2 (0 : Fin 1) k) (fun a => match a with
        | ⟨0, _⟩ => by show 0 = if (1 : Nat) = 1 then 0 else b.val; rw [if_pos rfl]
        | ⟨1, _⟩ => by show k.val = if (256 : Nat) = 1 then 0 else k.val; rw [if_neg (by decide)])).trans ?_
    exact broadcastInDim_apply ![1] bcast_S256_S1x256_1 _ (ix2 (0 : Fin 1) k) (ix1 k) (fun a => match a with
        | ⟨0, _⟩ => by show k.val = if (256 : Nat) = 1 then 0 else k.val; rw [if_neg (by decide)])

/-- Entry `(b, k)` of the graph table is row `b` of `u` against column `k` of the last 64 rows of `W1`, plus `b1 k`. -/
theorem g_apply (c : Dev nD) (b : Fin 64) (k : Fin 256) :
    (V m c main_v11 : S64x256.Idx → EReal) (ix2 b k)
    = gTab (fun b l => m ((c : Thread nD τ).loc main_arg3) (ix2 b l))
        (fun l k => m ((c : Thread nD τ).loc main_arg5) (ix2 (⟨320 + l.val, by omega⟩ : Fin 384) k))
        (fun k => m ((c : Thread nD τ).loc main_arg6) (ix1 k)) b k :=
  (congrFun (V_v11 m c) (ix2 b k)).trans (gTab_of _ _ _ b k)

/-! ## The column of graph indices -/

/-- A word already in `[0, 63]` is its own clamp. -/
theorem clamp63 (w : BitVec 32) (hw : w.toNat < 64) : IntOp.minsi 63#32 (IntOp.maxsi 0#32 w) = w := by
  have hti : w.toInt = w.toNat := BitVec.toInt_eq_toNat_of_lt (by omega)
  have h0 : (0#32 : BitVec 32).toInt = 0 := by decide
  have h63 : (63#32 : BitVec 32).toInt = 63 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, h63, decide_eq_true_eq] at hc
  all_goals first | rfl | (apply BitVec.eq_of_toNat_eq; simp only [BitVec.toNat_ofNat]; omega)

/-- Row `e` of the clamped index column is edge `e`'s graph index, when that is below 64. -/
theorem bcol_apply (c : Dev nD) (e : Fin 500000) (hb : (m ((c : Thread nD τ).loc main_arg4) (ix1 e)).toNat < 64) :
    (V m c main_v14 : S500000x1.Idx → BitVec 32) (ix2 e (0 : Fin 1)) = m ((c : Thread nD τ).loc main_arg4) (ix1 e) := by
  refine (congrFun (V_v14 m c) (ix2 e (0 : Fin 1))).trans ?_
  refine (shapeCast_apply _ shapeCasts_S500000_S500000x1 (ix2 e (0 : Fin 1)) (ix1 e) ?_).trans ?_
  · rw [Shape.rowMajor_val_one, Shape.rowMajor_val_two]
    show e.val = e.val * 1 + 0
    omega
  · exact clamp63 _ hb

end Cert.KernelIdeal.HostValue

end
-- ==== Proof.KernelPay.lean ====
/-
  The kernel body's stored value at row `r`, column `j` of a block, at the ideal values: the second layer of the
  normalised LeakyReLU of the first layer, where the first layer's fourth matmul (a one-hot row against the
  resident graph table) reads row `b` of that table, `b` the row's graph index.
-/
import proofs.«400506_j2370821947612_3_alg».proof.Proof.Gen.KernelIdeal.Skeleton
import proofs.«400506_j2370821947612_3_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.PayValue

open Cert.KernelIdeal Cert.KernelIdeal.Gen Cert.EdgeMlp Idealize.ShloMosaic Idealize.ShloMosaic.ValueIdx

/-! ### The product over `128` contracted features, read at a row and a column -/

private theorem lhsA_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
private theorem lhsA_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
private theorem rhsA_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
private theorem rhsA_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Into a zero accumulator the product at `(r, c)` is the sum over the 128 contracted features. -/
private theorem mmA_apply (a : FVec Ideal S5000x128 .bf16) (b : FVec Ideal S128x256 .bf16) (r : Fin 5000) (c : Fin 256) :
    matmul dot_S5000x128_S128x256_S5000x256_1_0_0_1_n_n none a b (constant (F := Ideal) S5000x256 .f32 0x00000000#32) (ix2 r c)
      = ∑ k : Fin 128, a (ix2 r k) * b (ix2 k c) := by
  refine (Ideal.matmul_constant_zero_apply dot_S5000x128_S128x256_S5000x256_1_0_0_1_n_n none a b (ix2 r c)).trans ?_
  rw [← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 r c) ((ValueIdx.contrEquiv1 dot_S5000x128_S128x256_S5000x256_1_0_0_1_n_n 128 rfl rfl).symm k) = ix2 r k := funext fun x => Fin.ext (by
    match x with
    | ⟨0, _⟩ => exact lhsA_0 _ _
    | ⟨1, _⟩ => exact (lhsA_1 _ _).trans hk)
  have er : dot_S5000x128_S128x256_S5000x256_1_0_0_1_n_n.rhsIdx (ix2 r c) ((ValueIdx.contrEquiv1 dot_S5000x128_S128x256_S5000x256_1_0_0_1_n_n 128 rfl rfl).symm k) = ix2 k c := funext fun x => Fin.ext (by
    match x with
    | ⟨0, _⟩ => exact (rhsA_0 _ _).trans hk
    | ⟨1, _⟩ => exact rhsA_1 _ _)
  rw [el, er]

/-! ### The product over `64` contracted features, read at a row and a column -/

private theorem lhsC_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
private theorem lhsC_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q
private theorem rhsC_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q
private theorem rhsC_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- Into a zero accumulator the product at `(r, c)` is the sum over the 64 contracted features. -/
private theorem mmC_apply (a : FVec Ideal S5000x64 .bf16) (b : FVec Ideal S64x256 .bf16) (r : Fin 5000) (c : Fin 256) :
    matmul dot_S5000x64_S64x256_S5000x256_1_0_0_1_n_n none a b (constant (F := Ideal) S5000x256 .f32 0x00000000#32) (ix2 r c)
      = ∑ k : Fin 64, a (ix2 r k) * b (ix2 k c) := by
  refine (Ideal.matmul_constant_zero_apply dot_S5000x64_S64x256_S5000x256_1_0_0_1_n_n none a b (ix2 r c)).trans ?_
  rw [← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx (ix2 r c) ((ValueIdx.contrEquiv1 dot_S5000x64_S64x256_S5000x256_1_0_0_1_n_n 64 rfl rfl).symm k) = ix2 r k := funext fun x => Fin.ext (by
    match x with
    | ⟨0, _⟩ => exact lhsC_0 _ _
    | ⟨1, _⟩ => exact (lhsC_1 _ _).trans hk)
  have er : dot_S5000x64_S64x256_S5000x256_1_0_0_1_n_n.rhsIdx (ix2 r c) ((ValueIdx.contrEquiv1 dot_S5000x64_S64x256_S5000x256_1_0_0_1_n_n 64 rfl rfl).symm k) = ix2 k c := funext fun x => Fin.ext (by
    match x with
    | ⟨0, _⟩ => exact (rhsC_0 _ _).trans hk
    | ⟨1, _⟩ => exact rhsC_1 _ _)
  rw [el, er]

/-! ### The product over `256` contracted features, read at a row and a column -/

private theorem lhsW_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
private theorem lhsW_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
private theorem rhsW_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
private theorem rhsW_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Into a zero accumulator the product at `(r, c)` is the sum over the 256 contracted features. -/
private theorem mmW_apply (a : FVec Ideal S5000x256 .bf16) (b : FVec Ideal S256x256 .bf16) (r : Fin 5000) (c : Fin 256) :
    matmul dot_S5000x256_S256x256_S5000x256_1_0_0_1_n_n none a b (constant (F := Ideal) S5000x256 .f32 0x00000000#32) (ix2 r c)
      = ∑ k : Fin 256, a (ix2 r k) * b (ix2 k c) := by
  refine (Ideal.matmul_constant_zero_apply dot_S5000x256_S256x256_S5000x256_1_0_0_1_n_n none a b (ix2 r c)).trans ?_
  rw [← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 r c) ((ValueIdx.contrEquiv1 dot_S5000x256_S256x256_S5000x256_1_0_0_1_n_n 256 rfl rfl).symm k) = ix2 r k := funext fun x => Fin.ext (by
    match x with
    | ⟨0, _⟩ => exact lhsW_0 _ _
    | ⟨1, _⟩ => exact (lhsW_1 _ _).trans hk)
  have er : dot_S5000x256_S256x256_S5000x256_1_0_0_1_n_n.rhsIdx (ix2 r c) ((ValueIdx.contrEquiv1 dot_S5000x256_S256x256_S5000x256_1_0_0_1_n_n 256 rfl rfl).symm k) = ix2 k c := funext fun x => Fin.ext (by
    match x with
    | ⟨0, _⟩ => exact (rhsW_0 _ _).trans hk
    | ⟨1, _⟩ => exact rhsW_1 _ _)
  rw [el, er]

/-! ### The one-hot row and the hidden entry -/

/-- The one-hot entry: the word comparing a column number with a graph index word, widened and converted, is `1` at
    the column the word names and `0` elsewhere. -/
private theorem onehot_val (w : BitVec 32) (k : Fin 64) :
    FloatOps.sitofp (F := Ideal) .f32 ((IntOp.cmpi .eq (BitVec.ofNat 32 k.val) w).setWidth 32)
      = if k.val = w.toNat then (1 : EReal) else 0 := by
  have hk : k.val < 2 ^ 32 := lt_trans k.isLt (by decide)
  by_cases h : BitVec.ofNat 32 k.val = w
  · have hc : IntOp.cmpi .eq (BitVec.ofNat 32 k.val) w = 1#1 := by
      simp only [IntOp.cmpi, h, beq_self_eq_true, BitVec.ofBool_true]; rfl
    have hv : k.val = w.toNat := by
      rw [← h, BitVec.toNat_ofNat, Nat.mod_eq_of_lt hk]
    rw [hc, if_pos hv]
    show (((BitVec.setWidth 32 1#1).toInt : ℝ) : EReal) = 1
    rw [show (BitVec.setWidth 32 1#1).toInt = 1 by decide]
    simp
  · have hc : IntOp.cmpi .eq (BitVec.ofNat 32 k.val) w = 0#1 := by
      simp only [IntOp.cmpi, beq_eq_false_iff_ne.mpr h, BitVec.ofBool_false]; rfl
    have hv : ¬ k.val = w.toNat := fun e => h (by rw [e, BitVec.ofNat_toNat, BitVec.setWidth_eq])
    rw [hc, if_neg hv]
    show (((BitVec.setWidth 32 0#1).toInt : ℝ) : EReal) = 0
    rw [show (BitVec.setWidth 32 0#1).toInt = 0 by decide]
    simp

/-- A sum against a one-hot row reads the one entry the row selects. -/
private theorem sum_onehot (n : Nat) (hn : n < 64) (g : Fin 64 → EReal) :
    ∑ k : Fin 64, (if k.val = n then (1 : EReal) else 0) * g k = g ⟨n, hn⟩ := by
  rw [Finset.sum_eq_single (⟨n, hn⟩ : Fin 64)]
  · rw [if_pos rfl, one_mul]
  · intro b _ hne
    rw [if_neg (fun e => hne (Fin.ext e)), zero_mul]
  · intro h; exact absurd (Finset.mem_univ _) h

/-- The one-hot block at `(r, j)`: `1` where `j` is the row's graph index, `0` elsewhere. -/
private theorem onehot_apply (x3 : Vec Ideal S5000x1 .i32) (r : Fin 5000) (j : Fin 64) :
    (truncf .bf16 (sitofp (F := Ideal) .f32 (extui 32 (cmpi .eq (iota .tc S5000x64 32 [1] iota_S5000x64_d1_w32)
        (broadcastTo S5000x64 (shapeCast S5000x1 x3 shapeCasts_S5000x1_S5000x1) broadcasts_S5000x1_S5000x64)) natLt_1_32))
        bitsLt_bf16_f32 : FVec Ideal S5000x64 .bf16) (ix2 r j)
      = if j.val = (x3 (ix2 r (0 : Fin 1))).toNat then (1 : EReal) else 0 := by
  have hi : iota .tc S5000x64 32 [1] iota_S5000x64_d1_w32 (ix2 r j) = BitVec.ofNat 32 j.val :=
    iota_single_apply .tc S5000x64 32 1 iota_S5000x64_d1_w32 (ix2 r j)
  have hbc : broadcastTo S5000x64 (shapeCast S5000x1 x3 shapeCasts_S5000x1_S5000x1) broadcasts_S5000x1_S5000x64 (ix2 r j)
      = x3 (ix2 r (0 : Fin 1)) := by
    rw [shapeCast_self]
    exact broadcastTo_apply x3 broadcasts_S5000x1_S5000x64 (ix2 r j) (ix2 r (0 : Fin 1)) (fun a => by
      match a with
      | ⟨0, _⟩ => show r.val = if (5000 : Nat) = 1 then 0 else r.val; rw [if_neg (by decide)]
      | ⟨1, _⟩ => rfl)
  show FloatOps.sitofp (F := Ideal) .f32 ((IntOp.cmpi .eq (iota .tc S5000x64 32 [1] iota_S5000x64_d1_w32 (ix2 r j))
      (broadcastTo S5000x64 (shapeCast S5000x1 x3 shapeCasts_S5000x1_S5000x1) broadcasts_S5000x1_S5000x64 (ix2 r j))).setWidth 32) = _
  rw [hi, hbc]
  exact onehot_val _ j

/-- The hidden entry after LeakyReLU at `(r, k)`: the three feature products, plus row `b` of the graph table
    (the one-hot product selects it), `b` the row's graph index. -/
private theorem pay2_apply (x0 x1 : Vec Ideal S5000x128 .f32) (x2 : Vec Ideal S5000x64 .f32) (x3 : Vec Ideal S5000x1 .i32)
    (x4 x5 : Vec Ideal S128x256 .bf16) (x6 x7 : Vec Ideal S64x256 .bf16)
    (r : Fin 5000) (k : Fin 256) (hb : (x3 (ix2 r (0 : Fin 1))).toNat < 64) :
    k0_pay2 (F := Ideal) x3 x0 x1 x2 x4 x5 x6 x7 (ix2 r k)
      = leaky (kLin (fun i => x0 (ix2 r i)) (fun i => x1 (ix2 r i)) (fun i => x2 (ix2 r i))
          (fun i k => x4 (ix2 i k)) (fun i k => x5 (ix2 i k)) (fun i k => x6 (ix2 i k))
          (fun k => x7 (ix2 (⟨(x3 (ix2 r (0 : Fin 1))).toNat, hb⟩ : Fin 64) k)) k) := by
  unfold k0_pay2
  simp only [select_apply, cmpf_apply, mulf_apply, addf_apply, broadcast_apply]
  rw [mmA_apply, mmA_apply, mmC_apply, mmC_apply]
  simp only [onehot_apply x3 r]
  simp only [shapeCast_self, truncf_apply]
  rw [sum_onehot _ hb]
  rfl

/-! ### The row sum as a column -/

/-- A lane sum read at a row is the sum over the row's 256 columns. -/
private theorem rowsum_apply (h : FVec Ideal S5000x256 .f32) (hφ : FKind.Formats .f32)
    (hacc : (0x00000000#32 : BitVec 32) = 0x00000000#32) (r : Fin 5000) :
    multiReduction (F := Ideal) .add [1] S5000 h 0x00000000#32 reduces_S5000x256_S5000 hφ hacc (ix1 r)
      = ∑ k : Fin 256, h (ix2 r k) := by
  refine (Ideal.multiReduction_add_single h 0x00000000#32 reduces_S5000x256_S5000 hφ hacc (ix1 r)).trans ?_
  show ∑ k : Fin 256, h (reduces_S5000x256_S5000.lift (ix1 r) k) = _
  refine Finset.sum_congr rfl fun k _ => congrArg h (funext fun a => Fin.ext ?_)
  match a with
  | ⟨0, _⟩ => rfl
  | ⟨1, _⟩ => rfl

/-- An `[a]` array cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column of row sums of the hidden block, at row `r`. -/
private theorem pay3_apply (x0 x1 : Vec Ideal S5000x128 .f32) (x2 : Vec Ideal S5000x64 .f32) (x3 : Vec Ideal S5000x1 .i32)
    (x4 x5 : Vec Ideal S128x256 .bf16) (x6 x7 : Vec Ideal S64x256 .bf16) (r : Fin 5000) (u : Fin 1) :
    k0_pay3 (F := Ideal) x3 x0 x1 x2 x4 x5 x6 x7 (ix2 r u)
      = ∑ k : Fin 256, k0_pay2 (F := Ideal) x3 x0 x1 x2 x4 x5 x6 x7 (ix2 r k) := by
  unfold k0_pay3
  exact (shapeCast_a_a1_apply _ _ r u).trans (rowsum_apply _ _ _ r)

/-! ### The normalisation and the second layer over an abstract hidden block -/

/-- A reciprocal square root at an index is the one of the element. -/
private theorem rsqrt_apply {s : Shape} {φ : FTy} (a : FVec Ideal s φ) (i : s.Idx) : rsqrt a i = Ideal.rsqrt (a i) := rfl

/-- From any hidden block `h` and a column `col` holding its row sums: the stored value at `(r, j)` is the second
    layer of the normalised row `r` of `h`. The mean is the column over 256; the variance is the row sum of the
    squared deviations over 256; scale, shift and bias arrive as one row broadcast over all rows. -/
private theorem pay1_apply (h : FVec Ideal S5000x256 .f32) (col : FVec Ideal S5000x1 .f32) (x8 x9 : Vec Ideal S256 .f32)
    (x10 : Vec Ideal S256x256 .bf16) (x11 : Vec Ideal S256 .f32) (r : Fin 5000) (j : Fin 256)
    (hcol : col (ix2 r (0 : Fin 1)) = ∑ k : Fin 256, h (ix2 r k)) :
    k0_pay1 (F := Ideal) h col x8 x9 x10 x11 (ix2 r j)
      = layer2 (fun k => h (ix2 r k)) (fun k => x8 (ix1 k)) (fun k => x9 (ix1 k)) (fun k j => x10 (ix2 k j))
          (fun j => x11 (ix1 j)) j := by
  unfold k0_pay1
  simp only [addf_apply]
  rw [mmW_apply]
  simp only [truncf_apply, addf_apply, mulf_apply, subf_apply, divf_apply, rsqrt_apply, broadcast_apply,
    broadcastTo_1b_ab_apply, shapeCast_a_1a_apply, broadcastTo_a1_ab_apply, shapeCast_self, shapeCast_a_a1_apply, hcol]
  rw [rowsum_apply]
  simp only [mulf_apply, subf_apply, divf_apply, broadcast_apply, broadcastTo_a1_ab_apply, hcol]
  rfl

/-! ### The stored value -/

/-- The stored value at `(r, j)`, from the twelve input blocks. Only row `r`'s graph index has to be in range. -/
theorem pay_apply (x0 x1 : Vec Ideal S5000x128 .f32) (x2 : Vec Ideal S5000x64 .f32) (x3 : Vec Ideal S5000x1 .i32)
    (x4 x5 : Vec Ideal S128x256 .bf16) (x6 x7 : Vec Ideal S64x256 .bf16) (x8 x9 : Vec Ideal S256 .f32)
    (x10 : Vec Ideal S256x256 .bf16) (x11 : Vec Ideal S256 .f32)
    (r : Fin 5000) (j : Fin 256) (hb : (x3 (ix2 r (0 : Fin 1))).toNat < 64) :
    k0_pay1 (F := Ideal) (k0_pay2 (F := Ideal) x3 x0 x1 x2 x4 x5 x6 x7) (k0_pay3 (F := Ideal) x3 x0 x1 x2 x4 x5 x6 x7) x8 x9 x10 x11 (ix2 r j)
    = layer2 (fun k => leaky (kLin (fun i => x0 (ix2 r i)) (fun i => x1 (ix2 r i)) (fun i => x2 (ix2 r i))
          (fun i k => x4 (ix2 i k)) (fun i k => x5 (ix2 i k)) (fun i k => x6 (ix2 i k))
          (fun k => x7 (ix2 (⟨(x3 (ix2 r (0 : Fin 1))).toNat, hb⟩ : Fin 64) k)) k))
        (fun k => x8 (ix1 k)) (fun k => x9 (ix1 k)) (fun k j => x10 (ix2 k j)) (fun j => x11 (ix1 j)) j := by
  refine (pay1_apply (k0_pay2 (F := Ideal) x3 x0 x1 x2 x4 x5 x6 x7) (k0_pay3 (F := Ideal) x3 x0 x1 x2 x4 x5 x6 x7)
    x8 x9 x10 x11 r j (pay3_apply x0 x1 x2 x3 x4 x5 x6 x7 r 0)).trans ?_
  exact congrArg (fun a : Fin 256 → EReal => layer2 a (fun k => x8 (ix1 k)) (fun k => x9 (ix1 k))
    (fun k j => x10 (ix2 k j)) (fun j => x11 (ix1 j)) j)
    (funext fun k => pay2_apply x0 x1 x2 x3 x4 x5 x6 x7 r k hb)

end Cert.KernelIdeal.PayValue

end
-- ==== Proof.Blocks.lean ====
/-
  From blocks to the array. Grid point `t` of the 100 handles edges `5000 t … 5000 t + 4999`: its blocks of the
  three feature arrays, of the index column and of the result are rows `5000 t + r`; the weight blocks, the graph
  table and the vectors `gamma`, `beta`, `b2` are whole at every point. So what point `t` writes back is rows
  `5000 t …` of the specification `G`, the 100 blocks tile the 500000 rows, and the result array ends as `G`.
-/
import proofs.«400506_j2370821947612_3_alg».proof.Proof.Gen.KernelIdeal.Value
import proofs.«400506_j2370821947612_3_alg».proof.Proof.Spec
import proofs.«400506_j2370821947612_3_alg».proof.Proof.HostValue
import proofs.«400506_j2370821947612_3_alg».proof.Proof.KernelPay
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Value Cert.KernelIdeal.HostValue Cert.KernelIdeal.PayValue Cert.EdgeMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Congruences of the specification's pieces -/

theorem kLin_congr {s s' d d' : Fin 128 → EReal} {a a' : Fin 64 → EReal} {A A' B B' : Fin 128 → Fin 256 → EReal}
    {C C' : Fin 64 → Fin 256 → EReal} {g g' : Fin 256 → EReal} (k : Fin 256)
    (hs : ∀ i, s i = s' i) (hd : ∀ i, d i = d' i) (ha : ∀ i, a i = a' i)
    (hA : ∀ i, A i k = A' i k) (hB : ∀ i, B i k = B' i k) (hC : ∀ i, C i k = C' i k) (hg : g k = g' k) :
    kLin s d a A B C g k = kLin s' d' a' A' B' C' g' k := by
  unfold kLin
  rw [hg]
  refine congrArg (· + g' k) (congrArg₂ (· + ·) (congrArg₂ (· + ·) ?_ ?_) ?_)
  · exact Finset.sum_congr rfl fun i _ => by rw [hs i, hA i]
  · exact Finset.sum_congr rfl fun i _ => by rw [hd i, hB i]
  · exact Finset.sum_congr rfl fun i _ => by rw [ha i, hC i]

theorem layer2_congr {a a' γ γ' β β' : Fin 256 → EReal} {W W' : Fin 256 → Fin 256 → EReal} {b b' : Fin 256 → EReal} (j : Fin 256)
    (ha : ∀ k, a k = a' k) (hγ : ∀ k, γ k = γ' k) (hβ : ∀ k, β k = β' k) (hW : ∀ k j, W k j = W' k j) (hb : ∀ j, b j = b' j) :
    layer2 a γ β W b j = layer2 a' γ' β' W' b' j := by
  obtain rfl : a = a' := funext ha
  obtain rfl : γ = γ' := funext hγ
  obtain rfl : β = β' := funext hβ
  obtain rfl : W = W' := funext fun k => funext fun j => hW k j
  obtain rfl : b = b' := funext hb
  rfl

/-! ## The index maps over the grid -/

theorem hz2 : (![0, 0] : Fin 2 → Nat) = fun _ => 0 := funext fun a => by fin_cases a <;> rfl
theorem hz1 : (![0] : Fin 1 → Nat) = fun _ => 0 := funext fun a => by fin_cases a <;> rfl

/-- The windows that move with the point: block index `(t, 0)`. -/
theorem idx_moving : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_12.index t (0 : Fin 2) = t.val ∧ win0_12.index t (1 : Fin 2) = 0 :=
  (by decide +kernel : ∀ t : Fin grid0.N, _)

/-- The resident windows: block index zero at every point. -/
theorem idx_resident : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0 ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

theorem point_lt (t : Fin cfg0.N) : t.val < 100 := by
  have h : t.val < grid0.N := t.isLt
  rw [N_0] at h
  exact h

/-- Edge `5000 t + r`: row `r` of point `t`'s blocks. -/
def row (t : Fin cfg0.N) (r : Fin 5000) : Fin 500000 :=
  ⟨t.val * 5000 + r.val, by have := point_lt t; have := r.isLt; omega⟩

/-! ## Each window's block at a point, read at an index -/

theorem src_blk (c : Dev nD) (t : Fin cfg0.N) (r : Fin 5000) (i : Fin 128) :
    iblk m c 0 t (ix2 r i) = m ((c : Thread nD τ).loc main_arg0) (ix2 (row t r) i) := by
  show V m c main_arg0 (((cfg0.win 0).blk t).view.emb (ix2 r i)) = _
  rw [V_main_arg0]
  obtain ⟨e0, e1, -⟩ := idx_moving t
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * i.val = i.val; omega

theorem dst_blk (c : Dev nD) (t : Fin cfg0.N) (r : Fin 5000) (i : Fin 128) :
    iblk m c 1 t (ix2 r i) = m ((c : Thread nD τ).loc main_arg1) (ix2 (row t r) i) := by
  show V m c main_arg1 (((cfg0.win 1).blk t).view.emb (ix2 r i)) = _
  rw [V_main_arg1]
  obtain ⟨-, -, e0, e1, -⟩ := idx_moving t
  refine congrArg _ (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * i.val = i.val; omega

theorem edge_blk (c : Dev nD) (t : Fin cfg0.N) (r : Fin 5000) (i : Fin 64) :
    iblk m c 2 t (ix2 r i) = m ((c : Thread nD τ).loc main_arg2) (ix2 (row t r) i) := by
  show V m c main_arg2 (((cfg0.win 2).blk t).view.emb (ix2 r i)) = _
  rw [V_main_arg2]
  obtain ⟨-, -, -, -, e0, e1, -⟩ := idx_moving t
  refine congrArg _ (funext fun a => Fin.ext ?_)
  match a with
  | ⟨0, _⟩ => show win0_2.index t (0 : Fin 2) * 5000 + 1 * r.val = t.val * 5000 + r.val; omega
  | ⟨1, _⟩ => show win0_2.index t (1 : Fin 2) * 64 + 1 * i.val = i.val; omega

theorem idx_blk (c : Dev nD) (t : Fin cfg0.N) (r : Fin 5000)
    (hb : (m ((c : Thread nD τ).loc main_arg4) (ix1 (row t r))).toNat < 64) :
    iblk m c 3 t (ix2 r (0 : Fin 1)) = m ((c : Thread nD τ).loc main_arg4) (ix1 (row t r)) := by
  show (V m c main_v14 : S500000x1.Idx → BitVec 32) (((cfg0.win 3).blk t).view.emb (ix2 r (0 : Fin 1))) = _
  obtain ⟨-, -, -, -, -, -, e0, e1, -⟩ := idx_moving t
  have he : ((cfg0.win 3).blk t).view.emb (ix2 r (0 : Fin 1)) = ix2 (row t r) (0 : Fin 1) := funext fun a => Fin.ext (by
    match a with
    | ⟨0, _⟩ => show win0_3.index t (0 : Fin 2) * 5000 + 1 * r.val = t.val * 5000 + r.val; omega
    | ⟨1, _⟩ => show win0_3.index t (1 : Fin 2) * 1 + 1 * 0 = 0; omega)
  rw [he]
  exact bcol_apply m c (row t r) hb

theorem w1a_blk (c : Dev nD) (t : Fin cfg0.N) (i : Fin 128) (k : Fin 256) :
    iblk m c 4 t (ix2 i k) = m ((c : Thread nD τ).loc main_arg5) (ix2 (⟨i.val, by omega⟩ : Fin 384) k) := by
  show (V m c main_v8 : S128x256.Idx → EReal) (((cfg0.win 4).blk t).view.emb (ix2 i k)) = _
  obtain ⟨e0, e1, -⟩ := idx_resident t
  have he : ((cfg0.win 4).blk t).view.emb (ix2 i k) = ix2 i k := funext fun a => Fin.ext (by
    match a with
    | ⟨0, _⟩ => show win0_4.index t (0 : Fin 2) * 128 + 1 * i.val = i.val; omega
    | ⟨1, _⟩ => show win0_4.index t (1 : Fin 2) * 256 + 1 * k.val = k.val; omega)
  rw [he]
  exact w1a_apply m c i k

theorem w1b_blk (c : Dev nD) (t : Fin cfg0.N) (i : Fin 128) (k : Fin 256) :
    iblk m c 5 t (ix2 i k) = m ((c : Thread nD τ).loc main_arg5) (ix2 (⟨128 + i.val, by omega⟩ : Fin 384) k) := by
  show (V m c main_v9 : S128x256.Idx → EReal) (((cfg0.win 5).blk t).view.emb (ix2 i k)) = _
  obtain ⟨-, -, e0, e1, -⟩ := idx_resident t
  have he : ((cfg0.win 5).blk t).view.emb (ix2 i k) = ix2 i k := funext fun a => Fin.ext (by
    match a with
    | ⟨0, _⟩ => show win0_5.index t (0 : Fin 2) * 128 + 1 * i.val = i.val; omega
    | ⟨1, _⟩ => show win0_5.index t (1 : Fin 2) * 256 + 1 * k.val = k.val; omega)
  rw [he]
  exact w1b_apply m c i k

theorem w1c_blk (c : Dev nD) (t : Fin cfg0.N) (i : Fin 64) (k : Fin 256) :
    iblk m c 6 t (ix2 i k) = m ((c : Thread nD τ).loc main_arg5) (ix2 (⟨256 + i.val, by omega⟩ : Fin 384) k) := by
  show (V m c main_v10 : S64x256.Idx → EReal) (((cfg0.win 6).blk t).view.emb (ix2 i k)) = _
  obtain ⟨-, -, -, -, e0, e1, -⟩ := idx_resident t
  have he : ((cfg0.win 6).blk t).view.emb (ix2 i k) = ix2 i k := funext fun a => Fin.ext (by
    match a with
    | ⟨0, _⟩ => show win0_6.index t (0 : Fin 2) * 64 + 1 * i.val = i.val; omega
    | ⟨1, _⟩ => show win0_6.index t (1 : Fin 2) * 256 + 1 * k.val = k.val; omega)
  rw [he]
  exact w1c_apply m c i k

theorem g_blk (c : Dev nD) (t : Fin cfg0.N) (b : Fin 64) (k : Fin 256) :
    iblk m c 7 t (ix2 b k)
    = gTab (fun b l => m ((c : Thread nD τ).loc main_arg3) (ix2 b l)) (fun l k => m ((c : Thread nD τ).loc main_arg5) (ix2 (⟨320 + l.val, by omega⟩ : Fin 384) k))
        (fun k => m ((c : Thread nD τ).loc main_arg6) (ix1 k)) b k := by
  show (V m c main_v11 : S64x256.Idx → EReal) (((cfg0.win 7).blk t).view.emb (ix2 b k)) = _
  obtain ⟨-, -, -, -, -, -, e0, e1, -⟩ := idx_resident t
  have he : ((cfg0.win 7).blk t).view.emb (ix2 b k) = ix2 b k := funext fun a => Fin.ext (by
    match a with
    | ⟨0, _⟩ => show win0_7.index t (0 : Fin 2) * 64 + 1 * b.val = b.val; omega
    | ⟨1, _⟩ => show win0_7.index t (1 : Fin 2) * 256 + 1 * k.val = k.val; omega)
  rw [he]
  exact g_apply m c b k

theorem gamma_blk (c : Dev nD) (t : Fin cfg0.N) (k : Fin 256) :
    iblk m c 8 t (ix1 k) = m ((c : Thread nD τ).loc main_arg7) (ix1 k) := by
  show V m c main_arg7 (((cfg0.win 8).blk t).view.emb (ix1 k)) = _
  rw [V_main_arg7]
  obtain ⟨-, -, -, -, -, -, -, -, e0, -⟩ := idx_resident t
  refine congrArg _ (funext fun a => Fin.ext ?_)
  match a with
  | ⟨0, _⟩ => show win0_8.index t (0 : Fin 1) * 256 + 1 * k.val = k.val; omega

theorem beta_blk (c : Dev nD) (t : Fin cfg0.N) (k : Fin 256) :
    iblk m c 9 t (ix1 k) = m ((c : Thread nD τ).loc main_arg8) (ix1 k) := by
  show V m c main_arg8 (((cfg0.win 9).blk t).view.emb (ix1 k)) = _
  rw [V_main_arg8]
  obtain ⟨-, -, -, -, -, -, -, -, -, e0, -⟩ := idx_resident t
  refine congrArg _ (funext fun a => Fin.ext ?_)
  match a with
  | ⟨0, _⟩ => show win0_9.index t (0 : Fin 1) * 256 + 1 * k.val = k.val; omega

theorem w2_blk (c : Dev nD) (t : Fin cfg0.N) (i k : Fin 256) :
    iblk m c 10 t (ix2 i k) = m ((c : Thread nD τ).loc main_arg9) (ix2 i k) := by
  show (V m c main_v12 : S256x256.Idx → EReal) (((cfg0.win 10).blk t).view.emb (ix2 i k)) = _
  obtain ⟨-, -, -, -, -, -, -, -, -, -, e0, e1, -⟩ := idx_resident t
  have he : ((cfg0.win 10).blk t).view.emb (ix2 i k) = ix2 i k := funext fun a => Fin.ext (by
    match a with
    | ⟨0, _⟩ => show win0_10.index t (0 : Fin 2) * 256 + 1 * i.val = i.val; omega
    | ⟨1, _⟩ => show win0_10.index t (1 : Fin 2) * 256 + 1 * k.val = k.val; omega)
  rw [he]
  exact w2_apply m c i k

theorem b2_blk (c : Dev nD) (t : Fin cfg0.N) (k : Fin 256) :
    iblk m c 11 t (ix1 k) = m ((c : Thread nD τ).loc main_arg10) (ix1 k) := by
  show V m c main_arg10 (((cfg0.win 11).blk t).view.emb (ix1 k)) = _
  rw [V_main_arg10]
  obtain ⟨-, -, -, -, -, -, -, -, -, -, -, -, e0⟩ := idx_resident t
  refine congrArg _ (funext fun a => Fin.ext ?_)
  match a with
  | ⟨0, _⟩ => show win0_11.index t (0 : Fin 1) * 256 + 1 * k.val = k.val; omega

/-! ## What a point writes back -/

/-- Point `t` writes back rows `5000 t …` of `G`, when every graph index is below 64. -/
theorem flushed12_eq (c : Dev nD) (hb : ∀ e : Fin 500000, (m ((c : Thread nD τ).loc main_arg4) (ix1 e)).toNat < 64) (t : Fin cfg0.N) :
    (dats m 0 c).flushed 12 t = ((cfg0.win 12).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed12]
  unfold out0_12
  rw [View.canon_unit_zero hz2]
  simp only [View.ld_unit_zero (S := S5000x128) hz2, View.ld_unit_zero (S := S5000x64) hz2, View.ld_unit_zero (S := S5000x1) hz2,
    View.ld_unit_zero (S := S128x256) hz2, View.ld_unit_zero (S := S64x256) hz2, View.ld_unit_zero (S := S256x256) hz2,
    View.ld_unit_zero (S := S256) hz1]
  funext y
  obtain ⟨r, j, rfl⟩ : ∃ (r : Fin 5000) (j : Fin 256), y = ix2 r j := ⟨y 0, y 1, eq_ix2 y⟩
  have hb3 : (iblk m c 3 t (ix2 r (0 : Fin 1))).toNat < 64 := by
    rw [idx_blk m c t r (hb _)]; exact hb _
  have hidx : (⟨(iblk m c 3 t (ix2 r (0 : Fin 1))).toNat, hb3⟩ : Fin 64) = bidx (m ((c : Thread nD τ).loc main_arg4)) (row t r) :=
    Fin.ext (by
      show (iblk m c 3 t (ix2 r (0 : Fin 1))).toNat = (bidx (m ((c : Thread nD τ).loc main_arg4)) (row t r)).val
      rw [idx_blk m c t r (hb _), bidx_val _ _ (hb _)])
  obtain ⟨-, -, -, -, -, -, -, -, e0, e1⟩ := idx_moving t
  have hemb : ((cfg0.win 12).blk t).view.emb (ix2 r j) = ix2 (row t r) j := funext fun a => Fin.ext (by
    match a with
    | ⟨0, _⟩ => show win0_12.index t (0 : Fin 2) * 5000 + 1 * r.val = t.val * 5000 + r.val; omega
    | ⟨1, _⟩ => show win0_12.index t (1 : Fin 2) * 256 + 1 * j.val = j.val; omega)
  show k0_pay1 (F := Ideal) (k0_pay2 (F := Ideal) (iblk m c 3 t) (iblk m c 0 t) (iblk m c 1 t) (iblk m c 2 t) (iblk m c 4 t) (iblk m c 5 t) (iblk m c 6 t) (iblk m c 7 t))
      (k0_pay3 (F := Ideal) (iblk m c 3 t) (iblk m c 0 t) (iblk m c 1 t) (iblk m c 2 t) (iblk m c 4 t) (iblk m c 5 t) (iblk m c 6 t) (iblk m c 7 t))
      (iblk m c 8 t) (iblk m c 9 t) (iblk m c 10 t) (iblk m c 11 t) (ix2 r j)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 12).blk t).view.emb (ix2 r j))
  rw [hemb, G_ix2]
  refine (pay_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) r j hb3).trans ?_
  unfold Gat Cert.EdgeMlp.hidden
  refine layer2_congr j (fun k => congrArg leaky ?_) (gamma_blk m c t) (beta_blk m c t) (w2_blk m c t) (b2_blk m c t)
  refine kLin_congr k (src_blk m c t r) (dst_blk m c t r) (edge_blk m c t r) (fun i => w1a_blk m c t i k) (fun i => w1b_blk m c t i k)
    (fun i => w1c_blk m c t i k) ?_
  rw [hidx]
  exact g_blk m c t _ k

/-! ## The cover, the array, the run -/

theorem mem_blk12 (t : Fin cfg0.N) (i : S500000x256.Idx) :
    i ∈ ((cfg0.win 12).blk t).view.set ↔ ∀ a : Fin 2, win0_12.index t a * S5000x256.size a ≤ (i a).val ∧ (i a).val < win0_12.index t a * S5000x256.size a + S5000x256.size a := by
  show i ∈ ((View.whole main_v15).slice (win0_12.rect t)).set ↔ _
  rw [View.set_slice_whole, Rect.mem_set_unit]
  exact Iff.rfl

/-- Every row lies in the block of the point `row / 5000`. -/
theorem cover12 (i : S500000x256.Idx) : ∃ t : Fin cfg0.N, (cfg0.win 12).flush t = true ∧ i ∈ ((cfg0.win 12).blk t).view.set := by
  have hi0 : (i 0).val < 500000 := (i 0).isLt
  have hi1 : (i 1).val < 256 := (i 1).isLt
  have hN : grid0.N = 100 := N_0
  have ht : (i 0).val / 5000 < grid0.N := by rw [hN]; omega
  obtain ⟨-, -, -, -, -, -, -, -, e0, e1⟩ := idx_moving ⟨(i 0).val / 5000, ht⟩
  refine ⟨⟨(i 0).val / 5000, ht⟩, flush0_12 _, ?_⟩
  rw [mem_blk12]
  intro a
  match a with
  | ⟨0, _⟩ =>
    show win0_12.index ⟨(i 0).val / 5000, ht⟩ (0 : Fin 2) * 5000 ≤ (i 0).val ∧ (i 0).val < win0_12.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_12.index ⟨(i 0).val / 5000, ht⟩ (1 : Fin 2) * 256 ≤ (i 1).val ∧ (i 1).val < win0_12.index ⟨(i 0).val / 5000, ht⟩ (1 : Fin 2) * 256 + 256
    rw [e1]
    omega

/-- The result array after the run is `G` of the arguments. -/
theorem final12 (c : Dev nD) (hb : ∀ e : Fin 500000, (m ((c : Thread nD τ).loc main_arg4) (ix1 e)).toNat < 64) :
    (dats m 0 c).arrAt 12 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed12_eq m c hb t) cover12

/-- The kernel's run: the result array at `G` of the arguments, the arguments unchanged. -/
theorem run (hb : ∀ (c : Dev nD) (e : Fin 500000), (m ((c : Thread nD τ).loc main_arg4) (ix1 e)).toNat < 64) :
    θ_run defs (onTc (τ := τ) (main (F := Ideal))) ⟨m, fun _ => 0, ρ⟩ fun r => ∀ c : Dev nD,
      r.2.mem ((c : Thread nD τ).loc main_v15) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final12 m c (hb c)), (h c).2⟩) (Value.run_blocks m ρ)

end Cert.KernelIdeal.Blocks

end
-- ==== Proof.RefSide.lean ====
/-
  The reference's result at edge `e`, column `j`, at the ideal values, is the specification's `Gat`: the gather
  `u[batch]` reads row `batch e` of `u` when that index is in range, the concatenation lays the four feature rows
  side by side, and the one sum over the 384 features regroups into the four partial sums.
-/
import proofs.«400506_j2370821947612_3_alg».proof.Proof.Gen.ReferenceIdeal.Read
import proofs.«400506_j2370821947612_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.ReferenceIdeal.RefValue

open Cert.ReferenceIdeal Cert.ReferenceIdeal.Gen Cert.ReferenceIdeal.Read Cert.EdgeMlp Idealize.ShloMosaic Idealize.ShloMosaic.ValueIdx

/-! ## The one sum over the concatenated features -/

/-- A sum over `m + n` indices is the sum over the first `m` plus the sum over the last `n`. -/
private theorem sum_split (m n : Nat) (f : Fin (m + n) → EReal) :
    ∑ k, f k = (∑ i : Fin m, f ⟨i.val, by omega⟩) + (∑ i : Fin n, f ⟨m + i.val, by omega⟩) := by
  rw [Fin.sum_univ_add]; rfl

/-- The first 128 concatenated features are the source row. -/
private theorem catRow_s (s d : Fin 128 → EReal) (a g : Fin 64 → EReal) (i : Fin 128) (h : i.val < 384) :
    catRow s d a g ⟨i.val, h⟩ = s i := by
  unfold catRow
  rw [dif_pos (show (⟨i.val, h⟩ : Fin 384).val < 128 from i.isLt)]

/-- The next 128 are the destination row. -/
private theorem catRow_d (s d : Fin 128 → EReal) (a g : Fin 64 → EReal) (i : Fin 128) (h : 128 + i.val < 384) :
    catRow s d a g ⟨128 + i.val, h⟩ = d i := by
  unfold catRow
  rw [dif_neg (show ¬(⟨128 + i.val, h⟩ : Fin 384).val < 128 from by simp),
    dif_pos (show (⟨128 + i.val, h⟩ : Fin 384).val < 256 from by have := i.isLt; simp; omega)]
  exact congrArg d (Fin.ext (by simp))

/-- The next 64 are the edge attributes. -/
private theorem catRow_a (s d : Fin 128 → EReal) (a g : Fin 64 → EReal) (i : Fin 64) (h : 256 + i.val < 384) :
    catRow s d a g ⟨256 + i.val, h⟩ = a i := by
  unfold catRow
  rw [dif_neg (show ¬(⟨256 + i.val, h⟩ : Fin 384).val < 128 from by simp; omega),
    dif_neg (show ¬(⟨256 + i.val, h⟩ : Fin 384).val < 256 from by simp),
    dif_pos (show (⟨256 + i.val, h⟩ : Fin 384).val < 320 from by have := i.isLt; simp; omega)]
  exact congrArg a (Fin.ext (by simp))

/-- The last 64 are the graph features. -/
private theorem catRow_g (s d : Fin 128 → EReal) (a g : Fin 64 → EReal) (i : Fin 64) (h : 320 + i.val < 384) :
    catRow s d a g ⟨320 + i.val, h⟩ = g i := by
  unfold catRow
  rw [dif_neg (show ¬(⟨320 + i.val, h⟩ : Fin 384).val < 128 from by simp; omega),
    dif_neg (show ¬(⟨320 + i.val, h⟩ : Fin 384).val < 256 from by simp; omega),
    dif_neg (show ¬(⟨320 + i.val, h⟩ : Fin 384).val < 320 from by simp)]
  exact congrArg g (Fin.ext (by simp))

/-- The one sum over the concatenated features is the four partial sums. -/
theorem cat_sum (s d : Fin 128 → EReal) (a g : Fin 64 → EReal) (W : Fin 384 → EReal) :
    ∑ k, catRow s d a g k * W k
    = (((∑ i : Fin 128, s i * W ⟨i.val, by omega⟩) + (∑ i : Fin 128, d i * W ⟨128 + i.val, by omega⟩))
        + (∑ i : Fin 64, a i * W ⟨256 + i.val, by omega⟩)) + (∑ i : Fin 64, g i * W ⟨320 + i.val, by omega⟩) := by
  -- split 384 = 320 + 64, then 320 = 256 + 64, then 256 = 128 + 128; each block of `catRow` is one of the four rows
  refine (sum_split 320 64 (fun k : Fin 384 => catRow s d a g k * W k)).trans ?_
  refine congrArg₂ (· + ·) ?_ (Finset.sum_congr rfl fun i _ => by rw [catRow_g])
  refine (sum_split 256 64 (fun k : Fin 320 => catRow s d a g ⟨k.val, by omega⟩ * W ⟨k.val, by omega⟩)).trans ?_
  refine congrArg₂ (· + ·) ?_ (Finset.sum_congr rfl fun i _ => by rw [catRow_a])
  refine (sum_split 128 128 (fun k : Fin 256 => catRow s d a g ⟨k.val, by omega⟩ * W ⟨k.val, by omega⟩)).trans ?_
  exact congrArg₂ (· + ·) (Finset.sum_congr rfl fun i _ => by rw [catRow_s]) (Finset.sum_congr rfl fun i _ => by rw [catRow_d])

/-! ## The gather: row `(e, ·)` of the result is the table's row at edge `e`'s clamped start index -/

/-- On the collapsed, start-indexed axis the operand coordinate is the start index `idx[e, 0]`, read signed and clamped
    into `[0, 63]`. -/
private theorem gather_op_0 (idx : IVec S500000x1 32) (e : Fin 500000) (l : Fin 64) :
    (gather_S64x64_S500000x1_S500000x64_1_0_n_n_0_1_164.operandIdx (ix2 e l) idx 0).val
      = min (idx (ix2 e (0 : Fin 1))).toInt.toNat 63 := by
  show gather_S64x64_S500000x1_S500000x64_1_0_n_n_0_1_164.start (ix2 e l) idx 0
      + gather_S64x64_S500000x1_S500000x64_1_0_n_n_0_1_164.batchCoord (ix2 e l) 0
      + gather_S64x64_S500000x1_S500000x64_1_0_n_n_0_1_164.offCoord (ix2 e l) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S64x64.rank) ∈ gather_S64x64_S500000x1_S500000x64_1_0_n_n_0_1_164.startIndexMap from
    List.mem_singleton.mpr rfl)]
  have hsi : gather_S64x64_S500000x1_S500000x64_1_0_n_n_0_1_164.siIdx (ix2 e l)
      ⟨List.idxOf (0 : Fin S64x64.rank) gather_S64x64_S500000x1_S500000x64_1_0_n_n_0_1_164.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand coordinate is the result's column. -/
private theorem gather_op_1 (idx : IVec S500000x1 32) (e : Fin 500000) (l : Fin 64) :
    (gather_S64x64_S500000x1_S500000x64_1_0_n_n_0_1_164.operandIdx (ix2 e l) idx 1).val = l.val := by
  show gather_S64x64_S500000x1_S500000x64_1_0_n_n_0_1_164.start (ix2 e l) idx 1
      + gather_S64x64_S500000x1_S500000x64_1_0_n_n_0_1_164.batchCoord (ix2 e l) 1
      + gather_S64x64_S500000x1_S500000x64_1_0_n_n_0_1_164.offCoord (ix2 e l) 1 = _
  rw [GatherDims.batchCoord_eq_zero _ _ _ List.not_mem_nil]
  unfold GatherDims.start
  rw [dif_neg (show ¬(1 : Fin S64x64.rank) ∈ gather_S64x64_S500000x1_S500000x64_1_0_n_n_0_1_164.startIndexMap from by decide)]
  simp only [Nat.add_zero, Nat.zero_add]
  unfold GatherDims.offCoord
  rw [dif_pos (show (1 : Fin S64x64.rank) ∈ gather_S64x64_S500000x1_S500000x64_1_0_n_n_0_1_164.sKept from by decide)]
  rfl

/-- THE GATHER READ AT `(e, l)`: the table at row `idx[e, 0]` (signed, clamped into `[0, 63]`), column `l`. -/
private theorem gather_row {α : Type} (x : S64x64.Idx → α) (idx : IVec S500000x1 32) (e : Fin 500000) (l : Fin 64) :
    Host.gather gather_S64x64_S500000x1_S500000x64_1_0_n_n_0_1_164 x idx (ix2 e l)
      = x (ix2 (⟨min (idx (ix2 e (0 : Fin 1))).toInt.toNat 63, by omega⟩ : Fin 64) l) := by
  unfold Host.gather
  refine congrArg x (funext fun a => Fin.ext ?_)
  match a with
  | ⟨0, _⟩ => exact gather_op_0 idx e l
  | ⟨1, _⟩ => exact gather_op_1 idx e l

section Chain

variable (x0 x1 : (⟨S500000x128, .f32⟩ : BufTy).Contents (Elt Ideal)) (x2 : (⟨S500000x64, .f32⟩ : BufTy).Contents (Elt Ideal))
  (x3 : (⟨S64x64, .f32⟩ : BufTy).Contents (Elt Ideal)) (x4 : (⟨S500000, .i32⟩ : BufTy).Contents (Elt Ideal))
  (x5 : (⟨S384x256, .f32⟩ : BufTy).Contents (Elt Ideal)) (x6 x7 x8 : (⟨S256, .f32⟩ : BufTy).Contents (Elt Ideal))
  (x9 : (⟨S256x256, .f32⟩ : BufTy).Contents (Elt Ideal)) (x10 : (⟨S256, .f32⟩ : BufTy).Contents (Elt Ideal))

/-! ## The first layer at edge `e` -/

/-- Edge `e`'s start index is its graph word: a word below 64 is not negative, so the wrap-around select keeps it. -/
private theorem start_word (e : Fin 500000) (hb : (x4 (ix1 e)).toNat < 64) :
    val_main_v5 (F := Ideal) x4 (ix2 e (0 : Fin 1)) = x4 (ix1 e) := by
  rw [val_main_v5_apply,
    show idx_main_v5 (ix2 e (0 : Fin 1)) = ix1 e from funext fun a => Fin.ext (by match a with | ⟨0, _⟩ => rfl),
    val_main_v4_apply, val_main_v1_apply, val_main_v0_apply, val_main_c_apply]
  have h0 : IntOp.cmpi .slt (x4 (ix1 e)) 0#32 = 0#1 := eq_zero_of_ne_one fun h => by
    have := (StableHlo.Predicate.slt_iff_toNat (by omega) (by decide)).mp h
    simp at this
  rw [h0, select_zero]

/-- The gathered row of edge `e` is row `bidx e` of the graph table. -/
private theorem v6_row (e : Fin 500000) (l : Fin 64) (hb : (x4 (ix1 e)).toNat < 64) :
    val_main_v6 (F := Ideal) x3 x4 (ix2 e l) = x3 (ix2 (bidx x4 e) l) := by
  unfold val_main_v6
  refine (gather_row x3 (val_main_v5 (F := Ideal) x4) e l).trans ?_
  refine congrArg (fun b : Fin 64 => x3 (ix2 b l)) (Fin.ext ?_)
  show min (val_main_v5 (F := Ideal) x4 (ix2 e (0 : Fin 1))).toInt.toNat 63 = (bidx x4 e).val
  rw [start_word x4 e hb, bidx_val x4 e hb, StableHlo.Predicate.toInt_eq_toNat_of_lt (by omega), Int.toNat_natCast]
  exact Nat.min_eq_left (by omega)

/-- A concatenation of the four feature arrays along the columns, read at `(e, k)`: the piece `k` falls in, at `k`
    less the columns before it. -/
private theorem cat_apply (y : (⟨S500000x64, .f32⟩ : BufTy).Contents (Elt Ideal)) (e : Fin 500000) (k : Fin 384) :
    concatenate S500000x384 1 [⟨S500000x128, x0⟩, ⟨S500000x128, x1⟩, ⟨S500000x64, x2⟩, ⟨S500000x64, y⟩]
        concatenates_S500000x128_S500000x128_S500000x64_S500000x64_S500000x384_d1 (ix2 e k)
      = catRow (fun i => x0 (ix2 e i)) (fun i => x1 (ix2 e i)) (fun i => x2 (ix2 e i)) (fun l => y (ix2 e l)) k := by
  unfold catRow
  by_cases h1 : k.val < 128
  · rw [dif_pos h1]
    exact concatenate_apply_piece (1 : Fin S500000x384.rank) _ _ (ix2 e k) 0 (by show (0 : Nat) < 4; omega) S500000x128 x0 rfl rfl 0 rfl
      (ix2 e (⟨k.val, h1⟩ : Fin 128))
      (fun b hb => by match b with | ⟨0, _⟩ => rfl | ⟨1, _⟩ => exact absurd (Fin.ext rfl) hb)
      (by show 0 + k.val = k.val; omega)
  · rw [dif_neg h1]
    by_cases h2 : k.val < 256
    · rw [dif_pos h2]
      exact concatenate_apply_piece (1 : Fin S500000x384.rank) _ _ (ix2 e k) 1 (by show (1 : Nat) < 4; omega) S500000x128 x1 rfl rfl 128 rfl
        (ix2 e (⟨k.val - 128, by omega⟩ : Fin 128))
        (fun b hb => by match b with | ⟨0, _⟩ => rfl | ⟨1, _⟩ => exact absurd (Fin.ext rfl) hb)
        (by show 128 + (k.val - 128) = k.val; omega)
    · rw [dif_neg h2]
      by_cases h3 : k.val < 320
      · rw [dif_pos h3]
        exact concatenate_apply_piece (1 : Fin S500000x384.rank) _ _ (ix2 e k) 2 (by show (2 : Nat) < 4; omega) S500000x64 x2 rfl rfl 256 rfl
          (ix2 e (⟨k.val - 256, by omega⟩ : Fin 64))
          (fun b hb => by match b with | ⟨0, _⟩ => rfl | ⟨1, _⟩ => exact absurd (Fin.ext rfl) hb)
          (by show 256 + (k.val - 256) = k.val; omega)
      · rw [dif_neg h3]
        exact concatenate_apply_piece (1 : Fin S500000x384.rank) _ _ (ix2 e k) 3 (by show (3 : Nat) < 4; omega) S500000x64 y rfl rfl 320 rfl
          (ix2 e (⟨k.val - 320, by have := k.isLt; omega⟩ : Fin 64))
          (fun b hb => by match b with | ⟨0, _⟩ => rfl | ⟨1, _⟩ => exact absurd (Fin.ext rfl) hb)
          (by show 320 + (k.val - 320) = k.val; omega)

/-- The concatenated feature row of edge `e`. -/
private theorem v7_row (e : Fin 500000) (k : Fin 384) :
    val_main_v7 (F := Ideal) x0 x1 x2 x3 x4 (ix2 e k)
      = catRow (fun i => x0 (ix2 e i)) (fun i => x1 (ix2 e i)) (fun i => x2 (ix2 e i))
          (fun l => val_main_v6 (F := Ideal) x3 x4 (ix2 e l)) k := by
  unfold val_main_v7
  exact cat_apply x0 x1 x2 (val_main_v6 (F := Ideal) x3 x4) e k

private theorem lidx8 (e : Fin 500000) (c : Fin 256) (k : Fin 384) : lidx_main_v8 (ix2 e c) k = ix2 e k :=
  funext fun a => Fin.ext (by match a with | ⟨0, _⟩ => rfl | ⟨1, _⟩ => rfl)
private theorem ridx8 (e : Fin 500000) (c : Fin 256) (k : Fin 384) : ridx_main_v8 (ix2 e c) k = ix2 k c :=
  funext fun a => Fin.ext (by match a with | ⟨0, _⟩ => rfl | ⟨1, _⟩ => rfl)
private theorem bias_idx (e : Fin 500000) (c : Fin 256) : idx_main_v9 (idx_main_v10 (ix2 e c)) = ix1 c :=
  funext fun a => Fin.ext (by match a with | ⟨0, _⟩ => rfl)

/-- The hidden entry before the activation: the one sum over 384 features plus the bias, regrouped. -/
private theorem v11_row (e : Fin 500000) (c : Fin 256) (hb : (x4 (ix1 e)).toNat < 64) :
    val_main_v11 (F := Ideal) x0 x1 x2 x3 x4 x5 x6 (ix2 e c)
      = kLin (fun i => x0 (ix2 e i)) (fun i => x1 (ix2 e i)) (fun i => x2 (ix2 e i))
          (fun i k => x5 (ix2 (⟨i.val, by omega⟩ : Fin 384) k))
          (fun i k => x5 (ix2 (⟨128 + i.val, by omega⟩ : Fin 384) k))
          (fun i k => x5 (ix2 (⟨256 + i.val, by omega⟩ : Fin 384) k))
          (gTab (fun b l => x3 (ix2 b l)) (fun l k => x5 (ix2 (⟨320 + l.val, by omega⟩ : Fin 384) k)) (fun k => x6 (ix1 k)) (bidx x4 e)) c := by
  rw [val_main_v11_apply, val_main_v8_apply, val_main_v10_apply, val_main_v9_apply, bias_idx]
  have hs : ∀ k : Fin 384, val_main_v7 (F := Ideal) x0 x1 x2 x3 x4 (lidx_main_v8 (ix2 e c) k) * x5 (ridx_main_v8 (ix2 e c) k)
      = catRow (fun i => x0 (ix2 e i)) (fun i => x1 (ix2 e i)) (fun i => x2 (ix2 e i)) (fun l => x3 (ix2 (bidx x4 e) l)) k
        * (fun k : Fin 384 => x5 (ix2 k c)) k := fun k => by
    rw [lidx8, ridx8, v7_row]
    exact congrArg (fun g => catRow _ _ _ g k * _) (funext fun l => v6_row x3 x4 e l hb)
  rw [Finset.sum_congr rfl fun k _ => hs k, cat_sum]
  unfold kLin gTab
  exact add_assoc _ _ _

/-- The LeakyReLU'd hidden entry of edge `e` is the specification's. -/
private theorem hidden_row (e : Fin 500000) (c : Fin 256) (hb : (x4 (ix1 e)).toNat < 64) :
    val_main_v16 (F := Ideal) x0 x1 x2 x3 x4 x5 x6 (ix2 e c) = hidden x0 x1 x2 x3 x4 x5 x6 e c := by
  rw [val_main_v16_apply, val_main_v13_apply, val_main_v15_apply, val_main_v14_apply, val_main_v12_apply,
    val_main_cst_apply, val_main_cst_1_apply, v11_row x0 x1 x2 x3 x4 x5 x6 e c hb]
  rfl

/-! ## Normalisation and the second layer, over the hidden row of edge `e` as it stands -/

private theorem idx18 (e : Fin 500000) : idx_main_v18 (ix2 e (0 : Fin 1)) = ix1 e :=
  funext fun a => Fin.ext (by match a with | ⟨0, _⟩ => rfl)
private theorem idx25 (e : Fin 500000) : idx_main_v25 (ix2 e (0 : Fin 1)) = ix1 e :=
  funext fun a => Fin.ext (by match a with | ⟨0, _⟩ => rfl)
private theorem idx17 (e : Fin 500000) (k : Fin 256) : idx_main_v17 (ix1 e) k = ix2 e k :=
  funext fun a => Fin.ext (by match a with | ⟨0, _⟩ => rfl | ⟨1, _⟩ => rfl)
private theorem idx24 (e : Fin 500000) (k : Fin 256) : idx_main_v24 (ix1 e) k = ix2 e k :=
  funext fun a => Fin.ext (by match a with | ⟨0, _⟩ => rfl | ⟨1, _⟩ => rfl)
private theorem idx21 (e : Fin 500000) (k : Fin 256) : idx_main_v21 (ix2 e k) = ix2 e (0 : Fin 1) :=
  funext fun a => Fin.ext (by match a with | ⟨0, _⟩ => rfl | ⟨1, _⟩ => rfl)
private theorem idx28 (e : Fin 500000) (k : Fin 256) : idx_main_v28 (ix2 e k) = ix2 e (0 : Fin 1) :=
  funext fun a => Fin.ext (by match a with | ⟨0, _⟩ => rfl | ⟨1, _⟩ => rfl)
private theorem idx33 (e : Fin 500000) (k : Fin 256) : idx_main_v33 (ix2 e k) = ix2 e (0 : Fin 1) :=
  funext fun a => Fin.ext (by match a with | ⟨0, _⟩ => rfl | ⟨1, _⟩ => rfl)
private theorem gamma_idx (e : Fin 500000) (k : Fin 256) : idx_main_v35 (idx_main_v36 (ix2 e k)) = ix1 k :=
  funext fun a => Fin.ext (by match a with | ⟨0, _⟩ => rfl)
private theorem beta_idx (e : Fin 500000) (k : Fin 256) : idx_main_v38 (idx_main_v39 (ix2 e k)) = ix1 k :=
  funext fun a => Fin.ext (by match a with | ⟨0, _⟩ => rfl)
private theorem b2_idx (e : Fin 500000) (j : Fin 256) : idx_main_v42 (idx_main_v43 (ix2 e j)) = ix1 j :=
  funext fun a => Fin.ext (by match a with | ⟨0, _⟩ => rfl)
private theorem lidx41 (e : Fin 500000) (j k : Fin 256) : lidx_main_v41 (ix2 e j) k = ix2 e k :=
  funext fun a => Fin.ext (by match a with | ⟨0, _⟩ => rfl | ⟨1, _⟩ => rfl)
private theorem ridx41 (e : Fin 500000) (j k : Fin 256) : ridx_main_v41 (ix2 e j) k = ix2 k j :=
  funext fun a => Fin.ext (by match a with | ⟨0, _⟩ => rfl | ⟨1, _⟩ => rfl)

/-- The row mean: the sum over the 256 columns, started from the zero word, over 256. -/
private theorem mean_row (e : Fin 500000) :
    val_main_v20 (F := Ideal) x0 x1 x2 x3 x4 x5 x6 (ix2 e (0 : Fin 1))
      = rowMean (fun k => val_main_v16 (F := Ideal) x0 x1 x2 x3 x4 x5 x6 (ix2 e k)) := by
  rw [val_main_v20_apply, val_main_v18_apply, idx18, val_main_v17_apply, val_main_cst_2_apply, val_main_v19_apply,
    val_main_cst_3_apply]
  unfold rowMean
  refine congrArg₂ Ideal.div ?_ rfl
  exact (congrArg₂ (· + ·) Ideal.ofBits_zero_f32 (Finset.sum_congr rfl fun k _ => by rw [idx17])).trans (zero_add _)

/-- The row variance: the mean of the squared deviations from the row mean. -/
private theorem var_row (e : Fin 500000) :
    val_main_v27 (F := Ideal) x0 x1 x2 x3 x4 x5 x6 (ix2 e (0 : Fin 1))
      = rowVar (fun k => val_main_v16 (F := Ideal) x0 x1 x2 x3 x4 x5 x6 (ix2 e k)) := by
  rw [val_main_v27_apply, val_main_v25_apply, idx25, val_main_v24_apply, val_main_cst_4_apply, val_main_v26_apply,
    val_main_cst_5_apply]
  unfold rowVar
  refine congrArg₂ Ideal.div ?_ rfl
  refine (congrArg₂ (· + ·) Ideal.ofBits_zero_f32 (Finset.sum_congr rfl fun k _ => ?_)).trans (zero_add _)
  rw [idx24, val_main_v23_apply, val_main_v22_apply, val_main_v21_apply, idx21, mean_row]
  rfl

/-- The normalised, scaled and shifted entry `(e, k)`. -/
private theorem normed_row (e : Fin 500000) (k : Fin 256) :
    val_main_v40 (F := Ideal) x0 x1 x2 x3 x4 x5 x6 x7 x8 (ix2 e k)
      = normed (fun k => val_main_v16 (F := Ideal) x0 x1 x2 x3 x4 x5 x6 (ix2 e k)) (fun k => x7 (ix1 k))
          (fun k => x8 (ix1 k)) k := by
  rw [val_main_v40_apply, val_main_v37_apply, val_main_v34_apply, val_main_v29_apply, val_main_v28_apply, idx28, mean_row,
    val_main_v33_apply, idx33, val_main_v32_apply, val_main_v31_apply, var_row, val_main_v30_apply, val_main_cst_6_apply,
    val_main_v36_apply, val_main_v35_apply, gamma_idx, val_main_v39_apply, val_main_v38_apply, beta_idx]
  rfl

/-- The result at `(e, j)` is the second layer applied to the normalised hidden row. -/
private theorem out_row (e : Fin 500000) (j : Fin 256) :
    val_main_v44 (F := Ideal) x0 x1 x2 x3 x4 x5 x6 x7 x8 x9 x10 (ix2 e j)
      = layer2 (fun k => val_main_v16 (F := Ideal) x0 x1 x2 x3 x4 x5 x6 (ix2 e k)) (fun k => x7 (ix1 k))
          (fun k => x8 (ix1 k)) (fun k j => x9 (ix2 k j)) (fun j => x10 (ix1 j)) j := by
  rw [val_main_v44_apply, val_main_v41_apply, val_main_v43_apply, val_main_v42_apply, b2_idx]
  unfold layer2
  refine congrArg₂ (· + ·) (Finset.sum_congr rfl fun k _ => ?_) rfl
  rw [lidx41, ridx41, normed_row]

end Chain

/-- The reference's result at `(e, j)` is `Gat`, when edge `e`'s graph index is in range. -/
theorem ref_apply (x0 x1 : (⟨S500000x128, .f32⟩ : BufTy).Contents (Elt Ideal)) (x2 : (⟨S500000x64, .f32⟩ : BufTy).Contents (Elt Ideal))
    (x3 : (⟨S64x64, .f32⟩ : BufTy).Contents (Elt Ideal)) (x4 : (⟨S500000, .i32⟩ : BufTy).Contents (Elt Ideal))
    (x5 : (⟨S384x256, .f32⟩ : BufTy).Contents (Elt Ideal)) (x6 x7 x8 : (⟨S256, .f32⟩ : BufTy).Contents (Elt Ideal))
    (x9 : (⟨S256x256, .f32⟩ : BufTy).Contents (Elt Ideal)) (x10 : (⟨S256, .f32⟩ : BufTy).Contents (Elt Ideal))
    (e : Fin 500000) (j : Fin 256) (hb : (x4 (ix1 e)).toNat < 64) :
    val_main_v44 (F := Ideal) x0 x1 x2 x3 x4 x5 x6 x7 x8 x9 x10 (ix2 e j) = Gat x0 x1 x2 x3 x4 x5 x6 x7 x8 x9 x10 e j := by
  rw [out_row]
  exact congrArg
    (fun a => layer2 a (fun k => x7 (ix1 k)) (fun k => x8 (ix1 k)) (fun k j => x9 (ix2 k j)) (fun j => x10 (ix1 j)) j)
    (funext fun k => hidden_row x0 x1 x2 x3 x4 x5 x6 e k hb)

end Cert.ReferenceIdeal.RefValue

end
-- ==== Proof.lean ====
/-
  An edge model of a graph network: each of 500000 edges concatenates its source and destination node features,
  its edge attributes and the features `u[batch e]` of the graph it belongs to, applies a linear layer, LeakyReLU,
  a layer normalisation and a second linear layer. The kernel tiles the edges in 100 blocks of 5000, splits the first
  layer into the three feature products plus a one-hot row against the table `u · W1[320:384] + b1`, and clamps the
  graph index into `[0, 63]`; the reference gathers `u[batch]`, where a negative index wraps before the gather clamps.

  The two agree over the extended reals wherever every graph index lies in `[0, 63]`, which the precondition states:
  there the clamp, the wrap and the gather's own clamp all leave the index alone, the one-hot sum reads exactly the
  table's row, and the single sum over 384 features regroups into the four partial sums (sums of extended reals
  regroup freely; no finiteness is used). After the first layer both programs apply the same operations with the same
  four constants, so the rest is reading each side at an index.

  `Spec` states the result as one function `G` of the eleven arrays; `PreFacts` reads the index range out of the
  precondition; `HostValue` reads the arrays the host prepares for the kernel; `KernelPay` the kernel body's stored
  value at an index; `Blocks` that the 100 blocks written back make up `G`; `RefSide` that the reference is `G`.
  The idealized kernel is the kernel's own text read over the extended reals, so nothing is owed for that step, and
  the three programs' runs are the generated ones.
-/
import proofs.«400506_j2370821947612_3_alg».proof.Defs
import proofs.«400506_j2370821947612_3_alg».proof.Proof.Gen.Kernel
import proofs.«400506_j2370821947612_3_alg».proof.Proof.Gen.Kernel.Skeleton
import proofs.«400506_j2370821947612_3_alg».proof.Proof.Gen.Kernel.Launch
import proofs.«400506_j2370821947612_3_alg».proof.Proof.Gen.Kernel.Points
import proofs.«400506_j2370821947612_3_alg».proof.Proof.Gen.Kernel.Frame
import proofs.«400506_j2370821947612_3_alg».proof.Proof.Gen.KernelIdeal
import proofs.«400506_j2370821947612_3_alg».proof.Proof.Gen.KernelIdeal.Skeleton
import proofs.«400506_j2370821947612_3_alg».proof.Proof.Gen.KernelIdeal.Launch
import proofs.«400506_j2370821947612_3_alg».proof.Proof.Gen.KernelIdeal.Points
import proofs.«400506_j2370821947612_3_alg».proof.Proof.Gen.KernelIdeal.Frame
import proofs.«400506_j2370821947612_3_alg».proof.Proof.Gen.ReferenceIdeal
import proofs.«400506_j2370821947612_3_alg».proof.Proof.Gen.Pre_finite_inputs
import proofs.«400506_j2370821947612_3_alg».proof.Proof.Gen.KernelIdeal.Value
import proofs.«400506_j2370821947612_3_alg».proof.Proof.Gen.ReferenceIdeal.Run
import proofs.«400506_j2370821947612_3_alg».proof.Proof.Gen.ReferenceIdeal.Read
import proofs.«400506_j2370821947612_3_alg».proof.Proof.Spec
import proofs.«400506_j2370821947612_3_alg».proof.Proof.PreFacts
import proofs.«400506_j2370821947612_3_alg».proof.Proof.Blocks
import proofs.«400506_j2370821947612_3_alg».proof.Proof.RefSide
import Idealize.ShloMosaic.Adequacy
import Idealize.ShloMosaic.Init

noncomputable section

namespace Cert.Proof

open Idealize.ShloMosaic Idealize.ShloMosaic.TcCoe Idealize.ShloMosaic.ValueIdx Idealize.SL.Sem Cert.EdgeMlp

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `G` of the arguments in their result array: the kernel block by block, the reference index by
    index, the graph indices in range by the precondition. -/
theorem algebraic : Cert.algebraic_KernelIdeal_ReferenceIdeal := by
  intro m ρ m' ρ' hpre hagree
  have hb : ∀ (c : Dev Cert.KernelIdeal.nD) (e : Fin 500000), (m ((c.tc : Thread Cert.KernelIdeal.nD Cert.KernelIdeal.τ).loc Cert.KernelIdeal.main_arg4) (ix1 e)).toNat < 64 :=
    fun c e => Cert.Pre_finite_inputs.Decode.batch_lt _ _ _ _ _ _ _ _ _ _ _ (hpre c) e
  refine ⟨fun c => G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Blocks.run m ρ hb, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  obtain ⟨h0, h1, h2, h3, h4, h5, h6, h7, h8, h9, h10⟩ := hagree c
  rw [h0, h1, h2, h3, h4, h5, h6, h7, h8, h9, h10]
  funext i
  obtain ⟨e, j, rfl⟩ : ∃ (e : Fin 500000) (j : Fin 256), i = ix2 e j := ⟨i 0, i 1, eq_ix2 i⟩
  exact Cert.ReferenceIdeal.RefValue.ref_apply _ _ _ _ _ _ _ _ _ _ _ e j (hb c e)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
